-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel

variable [Facts]

def fn {F : FTy → Type} [FloatOps F] (main_arg0 : FVec F S16x128x128x64 .f32) (main_arg1 : IVec S16x128x128x64 32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  let main_c_0 : IVec S_ 32 := constantI S_ 32 0#32
  let main_v4 : IVec S16x128x128x64 32 := broadcastInDim S16x128x128x64 ![] bcast_S_S16x128x128x64 main_c_0
  let main_v5 : IVec S16x128x128x64 1 := cmpi .sge main_arg1 main_v4
  let main_c_1 : IVec S_ 1 := constantI S_ 1 1#1
  let main_v6 : IVec S_ 1 := (fun x v => Host.reduce IntOp.andi x v reducesTo_S16x128x128x64_S_d0_1_2_3 h_S_) main_v5 main_c_1
  let main_v7 : IVec S_ 1 := andi main_v3 main_v6
  let main_c_2 : IVec S_ 32 := constantI S_ 32 4194304#32
  let main_v8 : IVec S16x128x128x64 32 := broadcastInDim S16x128x128x64 ![] bcast_S_S16x128x128x64 main_c_2
  let main_v9 : IVec S16x128x128x64 1 := cmpi .slt main_arg1 main_v8
  let main_c_3 : IVec S_ 1 := constantI S_ 1 1#1
  let main_v10 : IVec S_ 1 := (fun x v => Host.reduce IntOp.andi x v reducesTo_S16x128x128x64_S_d0_1_2_3 h_S_) main_v9 main_c_3
  let main_v11 : IVec S_ 1 := andi main_v7 main_v10
  main_v11
-- ==== Kernel.lean ====
abbrev S16x128x128x64 : Shape := ⟨4, ![16, 128, 128, 64]⟩
abbrev S16x16384x64 : Shape := ⟨3, ![16, 16384, 64]⟩
abbrev S1x16384x64 : Shape := ⟨3, ![1, 16384, 64]⟩
abbrev S16777216 : Shape := ⟨1, ![16777216]⟩
abbrev S_ : Shape := ⟨0, ![]⟩
abbrev S67108864 : Shape := ⟨1, ![67108864]⟩
abbrev S16777216x1 : Shape := ⟨2, ![16777216, 1]⟩
abbrev S16x256x256x64 : Shape := ⟨4, ![16, 256, 256, 64]⟩

abbrev nBuf : Space → Nat
  | .hbm => 18
  | .vmem => 4
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .i32⟩
  | .hbm, ⟨2, _⟩ => ⟨S16x16384x64, .i32⟩
  | .hbm, ⟨3, _⟩ => ⟨S16x16384x64, .i32⟩
  | .hbm, ⟨4, _⟩ => ⟨S16777216, .f32⟩
  | .hbm, ⟨5, _⟩ => ⟨S16777216, .i32⟩
  | .hbm, ⟨6, _⟩ => ⟨S_, .f32⟩
  | .hbm, ⟨7, _⟩ => ⟨S67108864, .f32⟩
  | .hbm, ⟨8, _⟩ => ⟨S_, .i32⟩
  | .hbm, ⟨9, _⟩ => ⟨S16777216, .i32⟩
  | .hbm, ⟨10, _⟩ => ⟨S16777216, .i1⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S16777216, .i32⟩
  | .hbm, ⟨15, _⟩ => ⟨S16777216x1, .i32⟩
  | .hbm, ⟨16, _⟩ => ⟨S67108864, .f32⟩
  | .hbm, ⟨17, _⟩ => ⟨S16x256x256x64, .f32⟩
  | .local _ .vmem, ⟨0, _⟩ => ⟨S1x16384x64, .i32⟩
  | .local _ .vmem, ⟨1, _⟩ => ⟨S1x16384x64, .i32⟩
  | .local _ .vmem, ⟨2, _⟩ => ⟨S1x16384x64, .i32⟩
  | .local _ .vmem, ⟨3, _⟩ => ⟨S1x16384x64, .i32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16384x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x128x128x64_S16x16384x64 : S16x128x128x64.ShapeCasts S16x16384x64
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S1x16384x64 : S1x16384x64.ShapeCasts S1x16384x64
  shapeCasts_S16x128x128x64_S16777216 : S16x128x128x64.ShapeCasts S16777216
  shapeCasts_S16x16384x64_S16777216 : S16x16384x64.ShapeCasts S16777216
  bcast_S_S67108864 : S_.BroadcastsInDim S67108864 (![] : Fin 0 → Fin S67108864.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S67108864_S16x256x256x64 : S67108864.ShapeCasts S16x256x256x64
  scatter_S67108864_S16777216x1_S16777216_n_0_0_1_wf : ScatterDims.WF S67108864 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x64.size a ≤ S16x16384x64.size a
  hwx0_0 : ∀ i : grid0.Coords, EltTy.bits .i32 = 32 ∨ (Rect.block (s := S16x16384x64) S1x16384x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384x64.size a ≤ S16x16384x64.size a
  hwx0_1 : ∀ i : grid0.Coords, EltTy.bits .i32 = 32 ∨ (Rect.block (s := S16x16384x64) S1x16384x64.size (cc0_transform_1 i) (hinb0_1 i)).WholeWords (EltTy.packing .i32)

variable [Facts₀]

def scatter_S67108864_S16777216x1_S16777216_n_0_0_1 : ScatterDims S67108864 S16777216x1 S16777216 where
  updateWindowDims := []
  insertedWindowDims := [0]
  scatterDimsToOperandDims := [0]
  indexVectorDim := 1
  wf := scatter_S67108864_S16777216x1_S16777216_n_0_0_1_wf

abbrev win0_0 : Pipeline.Window sig grid0 :=
  Pipeline.Window.ofSpec (Memref.whole main_v0) S1x16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16384x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S16777216 : Shape := ⟨1, ![16777216]⟩
abbrev S16 : Shape := ⟨1, ![16]⟩
abbrev S16x1048576 : Shape := ⟨2, ![16, 1048576]⟩
abbrev S_ : Shape := ⟨0, ![]⟩
abbrev S16x256x256x64 : Shape := ⟨4, ![16, 256, 256, 64]⟩
abbrev S16777216x1 : Shape := ⟨2, ![16777216, 1]⟩
abbrev S16777216x4 : Shape := ⟨2, ![16777216, 4]⟩

abbrev nBuf : Space → Nat
  | .hbm => 145
  | .vmem => 0
  | .smem => 0
  | _ => 0

abbrev hbmTy0_0 (i : Nat) : BufTy := match i % 128 with
  | 0 => ⟨S16x128x128x64, .f32⟩
  | 1 => ⟨S16x128x128x64, .i32⟩
  | 2 => ⟨S16777216, .i32⟩
  | 3 => ⟨S16777216, .f32⟩
  | 4 => ⟨S16, .i32⟩
  | 5 => ⟨S16x1048576, .i32⟩
  | 6 => ⟨S16777216, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S16777216, .i32⟩
  | 14 => ⟨S16777216, .i32⟩
  | 15 => ⟨S_, .i32⟩
  | 16 => ⟨S16777216, .i32⟩
  | 17 => ⟨S16777216, .i1⟩
  | 18 => ⟨S_, .i32⟩
  | 19 => ⟨S16777216, .i32⟩
  | 20 => ⟨S16777216, .i1⟩
  | 21 => ⟨S_, .i32⟩
  | 22 => ⟨S_, .i1⟩
  | 23 => ⟨S16777216, .i1⟩
  | 24 => ⟨S16777216, .i1⟩
  | 25 => ⟨S16777216, .i1⟩
  | 26 => ⟨S16777216, .i32⟩
  | 27 => ⟨S16777216, .i32⟩
  | 28 => ⟨S16777216, .i32⟩
  | 29 => ⟨S_, .i32⟩
  | 30 => ⟨S_, .i32⟩
  | 31 => ⟨S16777216, .i32⟩
  | 32 => ⟨S16777216, .i32⟩
  | 33 => ⟨S16777216, .i32⟩
  | 34 => ⟨S_, .i32⟩
  | 35 => ⟨S16777216, .i32⟩
  | 36 => ⟨S16777216, .i1⟩
  | 37 => ⟨S16777216, .i32⟩
  | 38 => ⟨S16777216, .i32⟩
  | 39 => ⟨S_, .i32⟩
  | 40 => ⟨S16777216, .i32⟩
  | 41 => ⟨S16777216, .i1⟩
  | 42 => ⟨S16777216, .i1⟩
  | 43 => ⟨S_, .i32⟩
  | 44 => ⟨S16777216, .i32⟩
  | 45 => ⟨S16777216, .i32⟩
  | 46 => ⟨S16777216, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S16777216, .i32⟩
  | 54 => ⟨S16777216, .i32⟩
  | 55 => ⟨S_, .i32⟩
  | 56 => ⟨S16777216, .i32⟩
  | 57 => ⟨S16777216, .i1⟩
  | 58 => ⟨S_, .i32⟩
  | 59 => ⟨S16777216, .i32⟩
  | 60 => ⟨S16777216, .i1⟩
  | 61 => ⟨S_, .i32⟩
  | 62 => ⟨S_, .i1⟩
  | 63 => ⟨S16777216, .i1⟩
  | 64 => ⟨S16777216, .i1⟩
  | 65 => ⟨S16777216, .i1⟩
  | 66 => ⟨S16777216, .i32⟩
  | 67 => ⟨S16777216, .i32⟩
  | 68 => ⟨S16777216, .i32⟩
  | 69 => ⟨S_, .i32⟩
  | 70 => ⟨S_, .i32⟩
  | 71 => ⟨S16777216, .i32⟩
  | 72 => ⟨S16777216, .i32⟩
  | 73 => ⟨S16777216, .i32⟩
  | 74 => ⟨S_, .i32⟩
  | 75 => ⟨S16777216, .i32⟩
  | 76 => ⟨S16777216, .i1⟩
  | 77 => ⟨S16777216, .i32⟩
  | 78 => ⟨S16777216, .i32⟩
  | 79 => ⟨S_, .i32⟩
  | 80 => ⟨S16777216, .i32⟩
  | 81 => ⟨S16777216, .i1⟩
  | 82 => ⟨S16777216, .i1⟩
  | 83 => ⟨S_, .i32⟩
  | 84 => ⟨S16777216, .i32⟩
  | 85 => ⟨S16777216, .i32⟩
  | 86 => ⟨S16777216, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S16777216, .i32⟩
  | 94 => ⟨S16777216, .i32⟩
  | 95 => ⟨S_, .i32⟩
  | 96 => ⟨S16777216, .i32⟩
  | 97 => ⟨S16777216, .i1⟩
  | 98 => ⟨S_, .i32⟩
  | 99 => ⟨S16777216, .i32⟩
  | 100 => ⟨S16777216, .i1⟩
  | 101 => ⟨S_, .i32⟩
  | 102 => ⟨S_, .i1⟩
  | 103 => ⟨S16777216, .i1⟩
  | 104 => ⟨S16777216, .i1⟩
  | 105 => ⟨S16777216, .i1⟩
  | 106 => ⟨S16777216, .i32⟩
  | 107 => ⟨S16777216, .i32⟩
  | 108 => ⟨S16777216, .i32⟩
  | 109 => ⟨S_, .f32⟩
  | 110 => ⟨S16x256x256x64, .f32⟩
  | 111 => ⟨S_, .i32⟩
  | 112 => ⟨S16777216, .i32⟩
  | 113 => ⟨S16777216, .i1⟩
  | 114 => ⟨S_, .i32⟩
  | 115 => ⟨S16777216, .i32⟩
  | 116 => ⟨S16777216, .i32⟩
  | 117 => ⟨S16777216, .i32⟩
  | 118 => ⟨S_, .i32⟩
  | 119 => ⟨S16777216, .i32⟩
  | 120 => ⟨S16777216, .i1⟩
  | 121 => ⟨S_, .i32⟩
  | 122 => ⟨S16777216, .i32⟩
  | 123 => ⟨S16777216, .i32⟩
  | 124 => ⟨S16777216, .i32⟩
  | 125 => ⟨S_, .i32⟩
  | 126 => ⟨S16777216, .i32⟩
  | 127 => ⟨S16777216, .i1⟩
  | _ => ⟨S16x128x128x64, .f32⟩

abbrev hbmTy0_1 (i : Nat) : BufTy := match i % 128 with
  | 0 => ⟨S_, .i32⟩
  | 1 => ⟨S16777216, .i32⟩
  | 2 => ⟨S16777216, .i32⟩
  | 3 => ⟨S16777216, .i32⟩
  | 4 => ⟨S_, .i32⟩
  | 5 => ⟨S16777216, .i32⟩
  | 6 => ⟨S16777216, .i1⟩
  | 7 => ⟨S_, .i32⟩
  | 8 => ⟨S16777216, .i32⟩
  | 9 => ⟨S16777216, .i32⟩
  | 10 => ⟨S16777216, .i32⟩
  | 11 => ⟨S16777216x1, .i32⟩
  | 12 => ⟨S16777216x1, .i32⟩
  | 13 => ⟨S16777216x1, .i32⟩
  | 14 => ⟨S16777216x1, .i32⟩
  | 15 => ⟨S16777216x4, .i32⟩
  | 16 => ⟨S16x256x256x64, .f32⟩
  | _ => ⟨S16x128x128x64, .f32⟩

abbrev hbmTy (i : Nat) : BufTy := match i / 128 with
  | 0 => hbmTy0_0 i
  | 1 => hbmTy0_1 i
  | _ => ⟨S16x128x128x64, .f32⟩

abbrev bufTy : (tb : Table) → Fin (tcTables nBuf tb) → BufTy
  | .hbm, ⟨i, _⟩ => hbmTy i
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v5 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v6 : Ref sig .tc := ⟨.hbm, 46, rfl⟩
abbrev main_c_1 : Ref sig .tc := ⟨.hbm, 47, rfl⟩
abbrev main_call2_v0 : Ref sig .tc := ⟨.hbm, 48, rfl⟩
abbrev main_call2_c : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_1 : Ref sig .tc := ⟨.hbm, 55, rfl⟩
abbrev main_call2_v5 : Ref sig .tc := ⟨.hbm, 56, rfl⟩
abbrev main_call2_v6 : Ref sig .tc := ⟨.hbm, 57, rfl⟩
abbrev main_call2_c_2 : Ref sig .tc := ⟨.hbm, 58, rfl⟩
abbrev main_call2_v7 : Ref sig .tc := ⟨.hbm, 59, rfl⟩
abbrev main_call2_v8 : Ref sig .tc := ⟨.hbm, 60, rfl⟩
abbrev main_call2_c_3 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_v7 : Ref sig .tc := ⟨.hbm, 68, rfl⟩
abbrev main_c_2 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v8 : Ref sig .tc := ⟨.hbm, 86, rfl⟩
abbrev main_c_3 : Ref sig .tc := ⟨.hbm, 87, rfl⟩
abbrev main_call4_v0 : Ref sig .tc := ⟨.hbm, 88, rfl⟩
abbrev main_call4_c : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_c_1 : Ref sig .tc := ⟨.hbm, 95, rfl⟩
abbrev main_call4_v5 : Ref sig .tc := ⟨.hbm, 96, rfl⟩
abbrev main_call4_v6 : Ref sig .tc := ⟨.hbm, 97, rfl⟩
abbrev main_call4_c_2 : Ref sig .tc := ⟨.hbm, 98, rfl⟩
abbrev main_call4_v7 : Ref sig .tc := ⟨.hbm, 99, rfl⟩
abbrev main_call4_v8 : Ref sig .tc := ⟨.hbm, 100, rfl⟩
abbrev main_call4_c_3 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_v9 : Ref sig .tc := ⟨.hbm, 108, rfl⟩
abbrev main_cst : Ref sig .tc := ⟨.hbm, 109, rfl⟩
abbrev main_v10 : Ref sig .tc := ⟨.hbm, 110, rfl⟩
abbrev main_c_4 : Ref sig .tc := ⟨.hbm, 111, rfl⟩
abbrev main_v11 : Ref sig .tc := ⟨.hbm, 112, rfl⟩
abbrev main_v12 : Ref sig .tc := ⟨.hbm, 113, rfl⟩
abbrev main_c_5 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_c_6 : Ref sig .tc := ⟨.hbm, 118, rfl⟩
abbrev main_v16 : Ref sig .tc := ⟨.hbm, 119, rfl⟩
abbrev main_v17 : Ref sig .tc := ⟨.hbm, 120, rfl⟩
abbrev main_c_7 : Ref sig .tc := ⟨.hbm, 121, rfl⟩
abbrev main_v18 : Ref sig .tc := ⟨.hbm, 122, rfl⟩
abbrev main_v19 : Ref sig .tc := ⟨.hbm, 123, rfl⟩
abbrev main_v20 : Ref sig .tc := ⟨.hbm, 124, rfl⟩
abbrev main_c_8 : Ref sig .tc := ⟨.hbm, 125, rfl⟩
abbrev main_v21 : Ref sig .tc := ⟨.hbm, 126, rfl⟩
abbrev main_v22 : Ref sig .tc := ⟨.hbm, 127, rfl⟩
abbrev main_c_9 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_c_10 : Ref sig .tc := ⟨.hbm, 132, rfl⟩
abbrev main_v26 : Ref sig .tc := ⟨.hbm, 133, rfl⟩
abbrev main_v27 : Ref sig .tc := ⟨.hbm, 134, rfl⟩
abbrev main_c_11 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_v36 : Ref sig .tc := ⟨.hbm, 144, rfl⟩

abbrev nD : Nat := 1
abbrev τ : Topo := Topo.v7x

variable {F : FTy → Type} [FloatOps F]

class Facts₀ : Prop where
  shapeCasts_S16x128x128x64_S16777216 : S16x128x128x64.ShapeCasts S16777216
  bcast_S16_S16x1048576_0 : S16.BroadcastsInDim S16x1048576 (![0] : Fin 1 → Fin S16x1048576.rank)
  shapeCasts_S16x1048576_S16777216 : S16x1048576.ShapeCasts S16777216
  bcast_S_S16777216 : S_.BroadcastsInDim S16777216 (![] : Fin 0 → Fin S16777216.rank)
  bcast_S_S16x256x256x64 : S_.BroadcastsInDim S16x256x256x64 (![] : Fin 0 → Fin S16x256x256x64.rank)
  bcast_S16777216_S16777216x1_0 : S16777216.BroadcastsInDim S16777216x1 (![0] : Fin 1 → Fin S16777216x1.rank)
  concatenates_S16777216x1_S16777216x1_S16777216x1_S16777216x1_S16777216x4_d1 : Shape.Concatenates [S16777216x1, S16777216x1, S16777216x1, S16777216x1] S16777216x4 1
  scatter_S16x256x256x64_S16777216x4_S16777216_n_0123_0123_1_wf : ScatterDims.WF S16x256x256x64 S16777216x4 S16777216 [] [0, 1, 2, 3] [0, 1, 2, 3] 1

variable [Facts₀]

def scatter_S16x256x256x64_S16777216x4_S16777216_n_0123_0123_1 : ScatterDims S16x256x256x64 S16777216x4 S16777216 where
  updateWindowDims := []
  insertedWindowDims := [0, 1, 2, 3]
  scatterDimsToOperandDims := [0, 1, 2, 3]
  indexVectorDim := 1
  wf := scatter_S16x256x256x64_S16777216x4_S16777216_n_0123_0123_1_wf

class Facts : Prop extends Facts₀ where

variable [Facts]
-- ==== Proof.Spec.lean ====
/-
  The two programs as pure functions of the argument arrays.

  The pooled values `x : f32[16,128,128,64]` are scattered, with accumulation, into a zero array of shape
  [16,256,256,64]; element (b,h,w,c) of `x` goes to batch `b` at the position its index word
  `am = a (b,h,w,c)` names inside the (256,256,64) volume of that batch.

  * The kernel's program adds `b * 4194304` to `am` (one block of 16384 x 64 words per batch), flattens, maps a
    negative word `v` to `v + 67108864`, scatters into a flat zero array of 67108864 elements and reshapes:
    `kernVal`.
  * The reference decodes `am` into the three digits `(am mod 4194304) div 16384`, `(am mod 16384) div 64`,
    `am mod 64` (jnp's floored `mod` and `div`, each printed as a truncated operation plus a sign correction),
    pairs them with the batch number read off an iota, wraps negative coordinates by the axis length and
    scatters with four-component indices: `refVal`.

  For `0 <= am < 4194304` the digits recombine to `am` and both scatters hit the same element.
-/
import Idealize.ShloMosaic.PureOps
import Idealize.ShloMosaic.PureOps.Ideal
import Idealize.ShloMosaic.Lib.ValueIdx

noncomputable section

namespace Cert.Unpool

open Idealize.ShloMosaic

abbrev S16x128x128x64 : Shape := ⟨4, ![16, 128, 128, 64]⟩
abbrev S16x16384x64 : Shape := ⟨3, ![16, 16384, 64]⟩
abbrev S16777216 : Shape := ⟨1, ![16777216]⟩
abbrev S_ : Shape := ⟨0, ![]⟩
abbrev S67108864 : Shape := ⟨1, ![67108864]⟩
abbrev S16777216x1 : Shape := ⟨2, ![16777216, 1]⟩
abbrev S16777216x4 : Shape := ⟨2, ![16777216, 4]⟩
abbrev S16x256x256x64 : Shape := ⟨4, ![16, 256, 256, 64]⟩
abbrev S16 : Shape := ⟨1, ![16]⟩
abbrev S16x1048576 : Shape := ⟨2, ![16, 1048576]⟩

theorem sc_in_blocks : S16x128x128x64.ShapeCasts S16x16384x64 := by decide
theorem sc_in_flat : S16x128x128x64.ShapeCasts S16777216 := by decide
theorem sc_blocks_flat : S16x16384x64.ShapeCasts S16777216 := by decide
theorem sc_flat_out : S67108864.ShapeCasts S16x256x256x64 := by decide
theorem sc_iota_flat : S16x1048576.ShapeCasts S16777216 := by decide
theorem bc_flat : S_.BroadcastsInDim S16777216 (![] : Fin 0 → Fin S16777216.rank) := by decide
theorem bc_big : S_.BroadcastsInDim S67108864 (![] : Fin 0 → Fin S67108864.rank) := by decide
theorem bc_out : S_.BroadcastsInDim S16x256x256x64 (![] : Fin 0 → Fin S16x256x256x64.rank) := by decide
theorem bc_col : S16777216.BroadcastsInDim S16777216x1 (![0] : Fin 1 → Fin S16777216x1.rank) := by decide
theorem bc_iota : S16.BroadcastsInDim S16x1048576 (![0] : Fin 1 → Fin S16x1048576.rank) := by decide
theorem conc4 : Shape.Concatenates [S16777216x1, S16777216x1, S16777216x1, S16777216x1] S16777216x4 1 := by decide
theorem wf1 : ScatterDims.WF S67108864 S16777216x1 S16777216 [] [0] [0] 1 := by decide
theorem wf4 : ScatterDims.WF S16x256x256x64 S16777216x4 S16777216 [] [0, 1, 2, 3] [0, 1, 2, 3] 1 := by decide

/-- The flat scatter's dimension numbers: one index component, naming the one operand axis. -/
def dims1 : ScatterDims S67108864 S16777216x1 S16777216 where
  updateWindowDims := []
  insertedWindowDims := [0]
  scatterDimsToOperandDims := [0]
  indexVectorDim := 1
  wf := wf1

/-- The four-axis scatter's dimension numbers: component `a` of an index names operand axis `a`. -/
def dims4 : ScatterDims S16x256x256x64 S16777216x4 S16777216 where
  updateWindowDims := []
  insertedWindowDims := [0, 1, 2, 3]
  scatterDimsToOperandDims := [0, 1, 2, 3]
  indexVectorDim := 1
  wf := wf4

/-! ## The kernel's side -/

/-- What the kernel writes: each word of batch `b` plus `b * 4194304` (32-bit arithmetic). -/
def kernOut (v : IVec S16x16384x64 32) : IVec S16x16384x64 32 :=
  fun j => IntOp.addi (v j) (Scalar.muli (BitVec.ofNat 32 (j 0).val) 4194304#32)

/-- A negative word `v` becomes `v + n`. -/
def wrapNeg (n : BitVec 32) (v : IVec S16777216 32) : IVec S16777216 32 :=
  select (cmpi .slt v (broadcastInDim S16777216 ![] bc_flat (constantI S_ 32 0#32)))
    (addi v (broadcastInDim S16777216 ![] bc_flat (constantI S_ 32 n))) v

/-- The kernel program's scatter indices, one component each. -/
def kernIdx (a : IVec S16x128x128x64 32) : IVec S16777216x1 32 :=
  broadcastInDim S16777216x1 ![0] bc_col
    (wrapNeg 67108864#32 (shapeCast S16777216 (kernOut (shapeCast S16x16384x64 a sc_in_blocks)) sc_blocks_flat))

/-- The kernel program's result at `Ideal`. -/
def kernVal (x : FVec Ideal S16x128x128x64 .f32) (a : IVec S16x128x128x64 32) : FVec Ideal S16x256x256x64 .f32 :=
  shapeCast S16x256x256x64
    (Host.scatterAdd dims1 (broadcastInDim S67108864 ![] bc_big (constant (F := Ideal) S_ .f32 0x00000000#32)) (kernIdx a)
      (shapeCast S16777216 x sc_in_flat)) sc_flat_out

/-! ## The reference's side -/

/-- jnp's `remainder x d` for a scalar divisor, as printed: the truncated remainder `r` by `d'` (`d`, or 1 where `d = 0`),
    plus `d'` where `r` is not zero and its sign is not the divisor's. -/
def remFn (x : IVec S16777216 32) (d : IVec S_ 32) : IVec S16777216 32 :=
  let d' : IVec S_ 32 := select (cmpi .eq (id d) (constantI S_ 32 0#32)) (constantI S_ 32 1#32) (id d)
  let r : IVec S16777216 32 := Host.remsi x (broadcastInDim S16777216 ![] bc_flat d')
  select
    (andi
      (cmpi .ne (cmpi .slt r (broadcastInDim S16777216 ![] bc_flat (constantI S_ 32 0#32)))
        (broadcastInDim S16777216 ![] bc_flat (cmpi .slt d' (constantI S_ 32 0#32))))
      (cmpi .ne r (broadcastInDim S16777216 ![] bc_flat (constantI S_ 32 0#32))))
    (addi r (broadcastInDim S16777216 ![] bc_flat d')) r

/-- jnp's `floor_divide x d` for a scalar divisor, as printed: the truncated quotient, less one where the signs of `x` and
    `d` differ and the truncated remainder is not zero. -/
def fdivFn (x : IVec S16777216 32) (d : IVec S_ 32) : IVec S16777216 32 :=
  let q : IVec S16777216 32 := Host.divsi x (broadcastInDim S16777216 ![] bc_flat (id d))
  select
    (andi
      (cmpi .ne (signi x) (broadcastInDim S16777216 ![] bc_flat (signi (id d))))
      (cmpi .ne (Host.remsi x (broadcastInDim S16777216 ![] bc_flat (id d)))
        (broadcastInDim S16777216 ![] bc_flat (constantI S_ 32 0#32))))
    (subi q (broadcastInDim S16777216 ![] bc_flat (constantI S_ 32 1#32))) q

/-- The batch number of each flattened element: an iota over 16 laid along rows of 1048576. -/
def batchOf : IVec S16777216 32 :=
  shapeCast S16777216 (broadcastInDim S16x1048576 ![0] bc_iota (iotaInDim S16 32 0)) sc_iota_flat

/-- The reference's scatter indices, four components each. -/
def refIdx (a : IVec S16x128x128x64 32) : IVec S16777216x4 32 :=
  let am : IVec S16777216 32 := shapeCast S16777216 a sc_in_flat
  let i1 := fdivFn (remFn am (constantI S_ 32 4194304#32)) (constantI S_ 32 16384#32)
  let i2 := fdivFn (remFn am (constantI S_ 32 16384#32)) (constantI S_ 32 64#32)
  let i3 := remFn am (constantI S_ 32 64#32)
  concatenate S16777216x4 1
    [⟨S16777216x1, broadcastInDim S16777216x1 ![0] bc_col (wrapNeg 16#32 batchOf)⟩,
     ⟨S16777216x1, broadcastInDim S16777216x1 ![0] bc_col (wrapNeg 256#32 i1)⟩,
     ⟨S16777216x1, broadcastInDim S16777216x1 ![0] bc_col (wrapNeg 256#32 i2)⟩,
     ⟨S16777216x1, broadcastInDim S16777216x1 ![0] bc_col (wrapNeg 64#32 i3)⟩] conc4

/-- The reference's result at `Ideal`. -/
def refVal (x : FVec Ideal S16x128x128x64 .f32) (a : IVec S16x128x128x64 32) : FVec Ideal S16x256x256x64 .f32 :=
  Host.scatterAdd dims4 (broadcastInDim S16x256x256x64 ![] bc_out (constant (F := Ideal) S_ .f32 0x00000000#32)) (refIdx a)
    (shapeCast S16777216 x sc_in_flat)

/-- The index words the two programs agree on: inside one batch's volume. -/
def InRange (a : IVec S16x128x128x64 32) : Prop := ∀ i, 0 ≤ (a i).toInt ∧ (a i).toInt < 4194304

end Cert.Unpool

end
-- ==== Proof.KernelRun.lean ====
/-
  The idealized kernel program's run: the region leaves batch `b`'s words plus `b * 4194304` in its output array, and the
  host operations after it end with the result array at `kernVal` of the argument arrays, which stay unchanged.

  The index array, viewed as 16 batches of 16384 x 64 words, is cut into 16 blocks, one batch each; grid point `t` reads
  block `t` and writes back, to block `t` of the output array, each word plus `t * 4194304`. A word at array position
  `(b, r, l)` lies in block `b` only, at position `(0, r, l)` of the block, so what point `t` writes is block `t` of ONE
  function of the whole array, `kernOut`: the word at `(b, r, l)` plus `b * 4194304`. The 16 blocks cover the array, hence
  the output array ends holding `kernOut` of the reshaped index array. The host operations after the region (flatten, wrap
  the negative words, scatter with accumulation into the flat zero array, reshape) are, operation by operation, the
  definition of `kernVal`.
-/
import proofs.«401093_j43980465111285_1_alg».proof.Proof.Spec
import proofs.«401093_j43980465111285_1_alg».proof.Proof.FrameKernelIdeal
import Idealize.ShloMosaic.Lib.Pipeline.Value
import Idealize.ShloMosaic.Lib.StableHlo.Run

noncomputable section

namespace Cert.KernelIdeal.Hand

open Cert.KernelIdeal Cert.KernelIdeal.Gen Cert.KernelIdeal.GenP Idealize.ShloMosaic Idealize.ShloMosaic.TcCoe Idealize.SL.Sem

section Value

variable (m : (ℓ : Loc nD τ sig) → Buf (Elt Ideal) ℓ)

/-- When the region is entered, its input array holds the index argument viewed as 16 batches of 16384 x 64 words: the one
    host operation before the region is that reshape. -/
theorem entry_blocks (c : Dev nD) :
    (V m c main_v0 : S16x16384x64.Idx → BitVec 32)
      = shapeCast S16x16384x64 (m ((c.tc : Thread nD τ).loc main_arg1)) Cert.Unpool.sc_in_blocks := by
  show StableHlo.after hostOps0 (fun b => m (c, b)) (Proc.devRef .tc main_v0) = _
  after_results
  rfl

/-- The offsets of the body's one load and one store are all zero: both go through the whole block. -/
theorem offsets_zero : (![0, 0, 0] : Fin 3 → Nat) = fun _ => 0 := funext fun a => by fin_cases a <;> rfl

/-- What the body stores, word by word: the loaded word plus the grid coordinate times 4194304 (the reshape to the same
    shape is the identity, the broadcast is constant, the addition is pointwise). -/
theorem stored_apply (i : grid0.Coords) (x0 : Vec Ideal S1x16384x64 .i32) (y : S1x16384x64.Idx) :
    k0_pay1 i x0 y = IntOp.addi (x0 y) (Scalar.muli (BitVec.ofNat 32 (i 0).val) 4194304#32) := by
  unfold k0_pay1
  simp only [shapeCast_self]
  rfl

/-- Both windows' block at grid point `t` is block `(t, 0, 0)`: batch `t`, all of its rows and lanes; and the point's one
    grid coordinate is `t` (decided over the 16 points). -/
theorem block_index : ∀ t : Fin cfg0.N, win0_0.index t (0 : Fin 3) = t.val
    ∧ win0_0.index t (1 : Fin 3) = 0 ∧ win0_0.index t (2 : Fin 3) = 0
    ∧ win0_1.index t (0 : Fin 3) = t.val
    ∧ win0_1.index t (1 : Fin 3) = 0 ∧ win0_1.index t (2 : Fin 3) = 0
    ∧ (grid0.coords t 0).val = t.val :=
  (by decide +kernel : ∀ t : Fin grid0.N, _)

/-- WHAT POINT `t` WRITES BACK is block `t` of `kernOut` of the input array: position `y` of either window's block is array
    position `(t, y 1, y 2)`, whose batch number `t` is the point's grid coordinate, so the stored word — the input word
    there plus `t * 4194304` — is `kernOut` of the input array at that position. -/
theorem written_eq (c : Dev nD) (t : Fin cfg0.N) :
    (dats m 0 c).flushed 1 t
      = ((cfg0.win 1).blk t).view.read (Elt Ideal) (Cert.Unpool.kernOut (V m c main_v0)) := by
  show (cfg0.win 1).cut (grid0.coords t) ((dats m 0 c).after 1 t) = _
  rw [after0_1]
  unfold out0_1
  rw [View.canon_unit_zero offsets_zero]
  simp only [View.ld_unit_zero (S := S1x16384x64) offsets_zero]
  obtain ⟨e0, e1, e2, e3, e4, e5, e6⟩ := block_index t
  funext j
  show k0_pay1 (grid0.coords t) (iblk m c 0 t) j
    = Cert.Unpool.kernOut (V m c main_v0) (((cfg0.win 1).blk t).view.emb j)
  refine (stored_apply (grid0.coords t) (iblk m c 0 t) j).trans ?_
  -- the input block and the output block sit at the same place of their arrays
  have h0 : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 16384 + 1 * (j 1).val = win0_1.index t (1 : Fin 3) * 16384 + 1 * (j 1).val; omega
    | ⟨2, _⟩ => show win0_0.index t (2 : Fin 3) * 64 + 1 * (j 2).val = win0_1.index t (2 : Fin 3) * 64 + 1 * (j 2).val; omega
  -- and the batch number of that place is the grid coordinate
  have h1 : ((((cfg0.win 1).blk t).view.emb j) 0).val = (grid0.coords t 0).val := by
    have hj : (j 0).val < 1 := (j 0).isLt
    show win0_1.index t (0 : Fin 3) * 1 + 1 * (j 0).val = (grid0.coords t 0).val
    omega
  show IntOp.addi (V m c main_v0 (((cfg0.win 0).blk t).view.emb j))
        (Scalar.muli (BitVec.ofNat 32 (grid0.coords t 0).val) 4194304#32)
     = IntOp.addi (V m c main_v0 (((cfg0.win 1).blk t).view.emb j))
        (Scalar.muli (BitVec.ofNat 32 ((((cfg0.win 1).blk t).view.emb j) 0).val) 4194304#32)
  rw [h0, h1]

/-- An array position is in point `t`'s output block iff each coordinate is in the block's range on its axis. -/
theorem mem_block (t : Fin cfg0.N) (i : S16x16384x64.Idx) :
    i ∈ ((cfg0.win 1).blk t).view.set ↔ ∀ a : Fin 3, win0_1.index t a * S1x16384x64.size a ≤ (i a).val
      ∧ (i a).val < win0_1.index t a * S1x16384x64.size a + S1x16384x64.size a := by
  show i ∈ ((View.whole main_v1).slice (win0_1.rect t)).set ↔ _
  rw [View.set_slice_whole, Rect.mem_set_unit]
  exact Iff.rfl

/-- THE BLOCKS COVER THE ARRAY: position `(b, r, l)` is in the block of point `b`, which writes back. -/
theorem covered (i : S16x16384x64.Idx) :
    ∃ t : Fin cfg0.N, (cfg0.win 1).flush t = true ∧ i ∈ ((cfg0.win 1).blk t).view.set := by
  have hi0 : (i 0).val < 16 := (i 0).isLt
  have hi1 : (i 1).val < 16384 := (i 1).isLt
  have hi2 : (i 2).val < 64 := (i 2).isLt
  obtain ⟨t, ht⟩ : ∃ t : Fin cfg0.N, t.val = (i 0).val :=
    ⟨⟨(i 0).val, by rw [show cfg0.N = 16 from N_0]; exact hi0⟩, rfl⟩
  obtain ⟨e0, e1, e2, e3, e4, e5, e6⟩ := block_index t
  refine ⟨t, flush0_1 t, ?_⟩
  rw [mem_block]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 16384 ≤ (i 1).val ∧ (i 1).val < win0_1.index t (1 : Fin 3) * 16384 + 16384; omega
  | ⟨2, _⟩ => show win0_1.index t (2 : Fin 3) * 64 ≤ (i 2).val ∧ (i 2).val < win0_1.index t (2 : Fin 3) * 64 + 64; omega

/-- THE OUTPUT ARRAY after the region: every point writes its block of `kernOut` of the input array and the blocks cover
    the array, so the array is `kernOut` of the input array. -/
theorem region_out (c : Dev nD) : (dats m 0 c).arrAt 1 cfg0.N = Cert.Unpool.kernOut (V m c main_v0) :=
  (dats m 0 c).arrAt_eq_of_cover 1 (Cert.Unpool.kernOut (V m c main_v0)) (fun t _ => written_eq m c t) covered

/-- THE RESULT ARRAY after the host operations that follow the region: they read the region's output array, which is
    `kernOut` of the reshaped index argument, and the value argument, which is as launched; applied to those two, the
    operations — flatten both, wrap the negative words by 67108864, scatter with accumulation into the flat zero array,
    reshape — are the definition of `kernVal`. -/
theorem tail_value (c : Dev nD) :
    Pipeline.afterTail₀ cfgs (dats m) 0 (V0 m) [hostOps1] c main_v12
      = Cert.Unpool.kernVal (m ((c.tc : Thread nD τ).loc main_arg0)) (m ((c.tc : Thread nD τ).loc main_arg1)) := by
  have hv1 : Pipeline.withArrays (cfgs 0).spec c (V0 m c) (fun w => (dats m 0 c).arrAt w (cfgs 0).N) (Proc.devRef .tc main_v1)
      = Cert.Unpool.kernOut (shapeCast S16x16384x64 (m ((c.tc : Thread nD τ).loc main_arg1)) Cert.Unpool.sc_in_blocks) :=
    ((Pipeline.withArrays_arr spec0 launch0.win.arr_inj c _ _ 1).trans (region_out m c)).trans
      (congrArg Cert.Unpool.kernOut (entry_blocks m c))
  have ha0 : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0
      (by exact (by decide : ∀ w, Pipeline.arrRef spec0 w ≠ main_arg0))).trans (V_main_arg0 m c)
  unfold Pipeline.afterTail₀
  show StableHlo.after hostOps1 _ (Proc.devRef .tc main_v12) = _
  after_results
  rw [hv1, ha0]
  rfl

end Value

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
        = Cert.Unpool.kernVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v12 (Pipeline.mem_restRefs_of main_v12 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (GenP.run_main m ρ)

end Cert.KernelIdeal.Hand

end
-- ==== Proof.RefRun.lean ====
/-
  The reference program's run: its straight line of host operations (the three `remainder` and two `floor_divide`
  calls inlined) ends with the result array at `refVal` of the argument arrays, which it leaves unchanged.

  The line is cut into seven stretches `s0 … s6` at the calls. For each stretch and ANY contents `W` of the buffers
  before it, the buffer a later stretch reads is stated as the Spec function of `W` at the buffers the stretch reads
  (its operations composed in order), and every buffer a later stretch still reads is stated unchanged (no operation
  of the stretch writes it). The seven facts chain, last stretch first, to `refVal` of the arguments.
-/
import proofs.«401093_j43980465111285_1_alg».proof.Proof.Spec
import proofs.«401093_j43980465111285_1_alg».proof.ReferenceIdeal
import proofs.«401093_j43980465111285_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The line, in seven stretches -/

variable {F : FTy → Type} [FloatOps F]

/-- The first six operations: the two arguments flattened, the batch numbers (an iota over 16, broadcast along rows of 1048576, flattened), the constant 4194304. -/
def s0 : List (HloOp τ sig (Elt F)) :=
  [ StableHlo.reshape main_arg1 main_v0 rfl shapeCasts_S16x128x128x64_S16777216,
    StableHlo.reshape main_arg0 main_v1 rfl shapeCasts_S16x128x128x64_S16777216,
    StableHlo.nullary main_v2 (iotaInDim S16 32 0),
    StableHlo.unary main_v2 main_v3 (broadcastInDim S16x1048576 ![0] bcast_S16_S16x1048576_0 : (⟨S16, .i32⟩ : BufTy).Contents (Elt F) → (⟨S16x1048576, .i32⟩ : BufTy).Contents (Elt F)),
    StableHlo.reshape main_v3 main_v4 rfl shapeCasts_S16x1048576_S16777216,
    StableHlo.nullary main_c (constantI S_ 32 4194304#32) ]

/-- The first `remainder` call inlined (the index words modulo the constant in `main_c`): 21 operations ending at `main_v5`. -/
def s1 : List (HloOp τ sig (Elt F)) :=
  [ StableHlo.TRef.unary (TRef.of main_c : TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S16777216 ![] bcast_S_S16777216),
    StableHlo.TRef.binary (TRef.of main_v0 : TRef sig ⟨S16777216, .i32⟩) main_call0.v3 main_call0.v4 Host.remsi,
    StableHlo.TRef.nullary main_call0.c_1 (constantI S_ 32 0#32),
    StableHlo.TRef.unary main_call0.c_1 main_call0.v5 (broadcastInDim S16777216 ![] bcast_S_S16777216),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S16777216 ![] bcast_S_S16777216),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S16777216 ![] bcast_S_S16777216),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S16777216 ![] bcast_S_S16777216),
    StableHlo.TRef.binary main_call0.v4 main_call0.v13 main_call0.v14 addi,
    StableHlo.TRef.ternary main_call0.v12 main_call0.v14 main_call0.v4 main_call0.v15 select ]

/-- The constant 16384 and the first `floor_divide` call inlined (`main_v5` by it): 18 operations ending at `main_v6`. -/
def s2 : List (HloOp τ sig (Elt F)) :=
  [ StableHlo.nullary main_c_0 (constantI S_ 32 16384#32),
    StableHlo.TRef.unary (TRef.of main_c_0 : TRef sig ⟨S_, .i32⟩) main_call1.v0 id,
    StableHlo.TRef.unary main_call1.v0 main_call1.v1 (broadcastInDim S16777216 ![] bcast_S_S16777216),
    StableHlo.TRef.binary (TRef.of main_v5 : TRef sig ⟨S16777216, .i32⟩) main_call1.v1 main_call1.v2 Host.divsi,
    StableHlo.TRef.unary (TRef.of main_v5 : TRef sig ⟨S16777216, .i32⟩) main_call1.v3 signi,
    StableHlo.TRef.unary main_call1.v0 main_call1.v4 signi,
    StableHlo.TRef.unary main_call1.v4 main_call1.v5 (broadcastInDim S16777216 ![] bcast_S_S16777216),
    StableHlo.TRef.binary main_call1.v3 main_call1.v5 main_call1.v6 (cmpi .ne),
    StableHlo.TRef.unary main_call1.v0 main_call1.v7 (broadcastInDim S16777216 ![] bcast_S_S16777216),
    StableHlo.TRef.binary (TRef.of main_v5 : TRef sig ⟨S16777216, .i32⟩) main_call1.v7 main_call1.v8 Host.remsi,
    StableHlo.TRef.nullary main_call1.c (constantI S_ 32 0#32),
    StableHlo.TRef.unary main_call1.c main_call1.v9 (broadcastInDim S16777216 ![] bcast_S_S16777216),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S16777216 ![] bcast_S_S16777216),
    StableHlo.TRef.binary main_call1.v2 main_call1.v12 main_call1.v13 subi,
    StableHlo.TRef.ternary main_call1.v11 main_call1.v13 main_call1.v2 main_call1.call0.v0 select ]

/-- The constant 16384 and the second `remainder` call inlined (the index words modulo it): 22 operations ending at `main_v7`. -/
def s3 : List (HloOp τ sig (Elt F)) :=
  [ StableHlo.nullary main_c_1 (constantI S_ 32 16384#32),
    StableHlo.TRef.unary (TRef.of main_c_1 : TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S16777216 ![] bcast_S_S16777216),
    StableHlo.TRef.binary (TRef.of main_v0 : TRef sig ⟨S16777216, .i32⟩) main_call2.v3 main_call2.v4 Host.remsi,
    StableHlo.TRef.nullary main_call2.c_1 (constantI S_ 32 0#32),
    StableHlo.TRef.unary main_call2.c_1 main_call2.v5 (broadcastInDim S16777216 ![] bcast_S_S16777216),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16777216 ![] bcast_S_S16777216),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16777216 ![] bcast_S_S16777216),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16777216 ![] bcast_S_S16777216),
    StableHlo.TRef.binary main_call2.v4 main_call2.v13 main_call2.v14 addi,
    StableHlo.TRef.ternary main_call2.v12 main_call2.v14 main_call2.v4 main_call2.v15 select ]

/-- The constant 64 and the second `floor_divide` call inlined (`main_v7` by it): 18 operations ending at `main_v8`. -/
def s4 : List (HloOp τ sig (Elt F)) :=
  [ StableHlo.nullary main_c_2 (constantI S_ 32 64#32),
    StableHlo.TRef.unary (TRef.of main_c_2 : TRef sig ⟨S_, .i32⟩) main_call3.v0 id,
    StableHlo.TRef.unary main_call3.v0 main_call3.v1 (broadcastInDim S16777216 ![] bcast_S_S16777216),
    StableHlo.TRef.binary (TRef.of main_v7 : TRef sig ⟨S16777216, .i32⟩) main_call3.v1 main_call3.v2 Host.divsi,
    StableHlo.TRef.unary (TRef.of main_v7 : TRef sig ⟨S16777216, .i32⟩) main_call3.v3 signi,
    StableHlo.TRef.unary main_call3.v0 main_call3.v4 signi,
    StableHlo.TRef.unary main_call3.v4 main_call3.v5 (broadcastInDim S16777216 ![] bcast_S_S16777216),
    StableHlo.TRef.binary main_call3.v3 main_call3.v5 main_call3.v6 (cmpi .ne),
    StableHlo.TRef.unary main_call3.v0 main_call3.v7 (broadcastInDim S16777216 ![] bcast_S_S16777216),
    StableHlo.TRef.binary (TRef.of main_v7 : TRef sig ⟨S16777216, .i32⟩) main_call3.v7 main_call3.v8 Host.remsi,
    StableHlo.TRef.nullary main_call3.c (constantI S_ 32 0#32),
    StableHlo.TRef.unary main_call3.c main_call3.v9 (broadcastInDim S16777216 ![] bcast_S_S16777216),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S16777216 ![] bcast_S_S16777216),
    StableHlo.TRef.binary main_call3.v2 main_call3.v12 main_call3.v13 subi,
    StableHlo.TRef.ternary main_call3.v11 main_call3.v13 main_call3.v2 main_call3.call0.v0 select ]

/-- The constant 64 and the third `remainder` call inlined (the index words modulo it): 22 operations ending at `main_v9`. -/
def s5 : List (HloOp τ sig (Elt F)) :=
  [ StableHlo.nullary main_c_3 (constantI S_ 32 64#32),
    StableHlo.TRef.unary (TRef.of main_c_3 : TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S16777216 ![] bcast_S_S16777216),
    StableHlo.TRef.binary (TRef.of main_v0 : TRef sig ⟨S16777216, .i32⟩) main_call4.v3 main_call4.v4 Host.remsi,
    StableHlo.TRef.nullary main_call4.c_1 (constantI S_ 32 0#32),
    StableHlo.TRef.unary main_call4.c_1 main_call4.v5 (broadcastInDim S16777216 ![] bcast_S_S16777216),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S16777216 ![] bcast_S_S16777216),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S16777216 ![] bcast_S_S16777216),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S16777216 ![] bcast_S_S16777216),
    StableHlo.TRef.binary main_call4.v4 main_call4.v13 main_call4.v14 addi,
    StableHlo.TRef.ternary main_call4.v12 main_call4.v14 main_call4.v4 main_call4.v15 select ]

/-- The rest: the zero array, the four coordinates' wrap of a negative value by the axis length, the four columns, their concatenation and the scatter: 36 operations ending at `main_v36`. -/
def s6 : List (HloOp τ sig (Elt F)) :=
  [ StableHlo.nullary main_cst (constant S_ .f32 0x00000000#32),
    StableHlo.unary main_cst main_v10 (broadcastInDim S16x256x256x64 ![] bcast_S_S16x256x256x64 : (⟨S_, .f32⟩ : BufTy).Contents (Elt F) → (⟨S16x256x256x64, .f32⟩ : BufTy).Contents (Elt F)),
    StableHlo.nullary main_c_4 (constantI S_ 32 0#32),
    StableHlo.unary main_c_4 main_v11 (broadcastInDim S16777216 ![] bcast_S_S16777216 : (⟨S_, .i32⟩ : BufTy).Contents (Elt F) → (⟨S16777216, .i32⟩ : BufTy).Contents (Elt F)),
    StableHlo.binary main_v4 main_v11 main_v12 (cmpi .slt : (⟨S16777216, .i32⟩ : BufTy).Contents (Elt F) → (⟨S16777216, .i32⟩ : BufTy).Contents (Elt F) → (⟨S16777216, .i1⟩ : BufTy).Contents (Elt F)),
    StableHlo.nullary main_c_5 (constantI S_ 32 16#32),
    StableHlo.unary main_c_5 main_v13 (broadcastInDim S16777216 ![] bcast_S_S16777216 : (⟨S_, .i32⟩ : BufTy).Contents (Elt F) → (⟨S16777216, .i32⟩ : BufTy).Contents (Elt F)),
    StableHlo.binary main_v4 main_v13 main_v14 (addi : (⟨S16777216, .i32⟩ : BufTy).Contents (Elt F) → (⟨S16777216, .i32⟩ : BufTy).Contents (Elt F) → (⟨S16777216, .i32⟩ : BufTy).Contents (Elt F)),
    StableHlo.ternary main_v12 main_v14 main_v4 main_v15 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.nullary main_c_6 (constantI S_ 32 0#32),
    StableHlo.unary main_c_6 main_v16 (broadcastInDim S16777216 ![] bcast_S_S16777216 : (⟨S_, .i32⟩ : BufTy).Contents (Elt F) → (⟨S16777216, .i32⟩ : BufTy).Contents (Elt F)),
    StableHlo.binary main_v6 main_v16 main_v17 (cmpi .slt : (⟨S16777216, .i32⟩ : BufTy).Contents (Elt F) → (⟨S16777216, .i32⟩ : BufTy).Contents (Elt F) → (⟨S16777216, .i1⟩ : BufTy).Contents (Elt F)),
    StableHlo.nullary main_c_7 (constantI S_ 32 256#32),
    StableHlo.unary main_c_7 main_v18 (broadcastInDim S16777216 ![] bcast_S_S16777216 : (⟨S_, .i32⟩ : BufTy).Contents (Elt F) → (⟨S16777216, .i32⟩ : BufTy).Contents (Elt F)),
    StableHlo.binary main_v6 main_v18 main_v19 (addi : (⟨S16777216, .i32⟩ : BufTy).Contents (Elt F) → (⟨S16777216, .i32⟩ : BufTy).Contents (Elt F) → (⟨S16777216, .i32⟩ : BufTy).Contents (Elt F)),
    StableHlo.ternary main_v17 main_v19 main_v6 main_v20 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.nullary main_c_8 (constantI S_ 32 0#32),
    StableHlo.unary main_c_8 main_v21 (broadcastInDim S16777216 ![] bcast_S_S16777216 : (⟨S_, .i32⟩ : BufTy).Contents (Elt F) → (⟨S16777216, .i32⟩ : BufTy).Contents (Elt F)),
    StableHlo.binary main_v8 main_v21 main_v22 (cmpi .slt : (⟨S16777216, .i32⟩ : BufTy).Contents (Elt F) → (⟨S16777216, .i32⟩ : BufTy).Contents (Elt F) → (⟨S16777216, .i1⟩ : BufTy).Contents (Elt F)),
    StableHlo.nullary main_c_9 (constantI S_ 32 256#32),
    StableHlo.unary main_c_9 main_v23 (broadcastInDim S16777216 ![] bcast_S_S16777216 : (⟨S_, .i32⟩ : BufTy).Contents (Elt F) → (⟨S16777216, .i32⟩ : BufTy).Contents (Elt F)),
    StableHlo.binary main_v8 main_v23 main_v24 (addi : (⟨S16777216, .i32⟩ : BufTy).Contents (Elt F) → (⟨S16777216, .i32⟩ : BufTy).Contents (Elt F) → (⟨S16777216, .i32⟩ : BufTy).Contents (Elt F)),
    StableHlo.ternary main_v22 main_v24 main_v8 main_v25 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.nullary main_c_10 (constantI S_ 32 0#32),
    StableHlo.unary main_c_10 main_v26 (broadcastInDim S16777216 ![] bcast_S_S16777216 : (⟨S_, .i32⟩ : BufTy).Contents (Elt F) → (⟨S16777216, .i32⟩ : BufTy).Contents (Elt F)),
    StableHlo.binary main_v9 main_v26 main_v27 (cmpi .slt : (⟨S16777216, .i32⟩ : BufTy).Contents (Elt F) → (⟨S16777216, .i32⟩ : BufTy).Contents (Elt F) → (⟨S16777216, .i1⟩ : BufTy).Contents (Elt F)),
    StableHlo.nullary main_c_11 (constantI S_ 32 64#32),
    StableHlo.unary main_c_11 main_v28 (broadcastInDim S16777216 ![] bcast_S_S16777216 : (⟨S_, .i32⟩ : BufTy).Contents (Elt F) → (⟨S16777216, .i32⟩ : BufTy).Contents (Elt F)),
    StableHlo.binary main_v9 main_v28 main_v29 (addi : (⟨S16777216, .i32⟩ : BufTy).Contents (Elt F) → (⟨S16777216, .i32⟩ : BufTy).Contents (Elt F) → (⟨S16777216, .i32⟩ : BufTy).Contents (Elt F)),
    StableHlo.ternary main_v27 main_v29 main_v9 main_v30 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v15 main_v31 (broadcastInDim S16777216x1 ![0] bcast_S16777216_S16777216x1_0 : (⟨S16777216, .i32⟩ : BufTy).Contents (Elt F) → (⟨S16777216x1, .i32⟩ : BufTy).Contents (Elt F)),
    StableHlo.unary main_v20 main_v32 (broadcastInDim S16777216x1 ![0] bcast_S16777216_S16777216x1_0 : (⟨S16777216, .i32⟩ : BufTy).Contents (Elt F) → (⟨S16777216x1, .i32⟩ : BufTy).Contents (Elt F)),
    StableHlo.unary main_v25 main_v33 (broadcastInDim S16777216x1 ![0] bcast_S16777216_S16777216x1_0 : (⟨S16777216, .i32⟩ : BufTy).Contents (Elt F) → (⟨S16777216x1, .i32⟩ : BufTy).Contents (Elt F)),
    StableHlo.unary main_v30 main_v34 (broadcastInDim S16777216x1 ![0] bcast_S16777216_S16777216x1_0 : (⟨S16777216, .i32⟩ : BufTy).Contents (Elt F) → (⟨S16777216x1, .i32⟩ : BufTy).Contents (Elt F)),
    StableHlo.nary ![main_v31, main_v32, main_v33, main_v34] main_v35 (fun u => concatenate S16777216x4 1 [⟨S16777216x1, u 0⟩, ⟨S16777216x1, u 1⟩, ⟨S16777216x1, u 2⟩, ⟨S16777216x1, u 3⟩] concatenates_S16777216x1_S16777216x1_S16777216x1_S16777216x1_S16777216x4_d1),
    StableHlo.ternary main_v10 main_v35 main_v1 main_v36 ((fun x i u => Host.scatterAdd scatter_S16x256x256x64_S16777216x4_S16777216_n_0123_0123_1 x i u) : (⟨S16x256x256x64, .f32⟩ : BufTy).Contents (Elt F) → (⟨S16777216x4, .i32⟩ : BufTy).Contents (Elt F) → (⟨S16777216, .f32⟩ : BufTy).Contents (Elt F) → (⟨S16x256x256x64, .f32⟩ : BufTy).Contents (Elt F)) ]

/-- The whole line: the seven stretches in order. -/
def ops : List (HloOp τ sig (Elt F)) := s0 ++ (s1 ++ (s2 ++ (s3 ++ (s4 ++ (s5 ++ s6)))))

set_option maxRecDepth 16384 in
set_option maxHeartbeats 2000000 in
/-- @main is that line: each call is its callee's body on the call's buffers, and both sides are one chain of the same
    143 steps once sequencing is reassociated. -/
theorem main_eq (c : Dev nD) : main (F := F) c = seq ops := by
  delta ops
  simp only [seq_append]
  rfl

/-! ## The line's side conditions -/

/-- Every operation of `s0` touches TensorCore references only. -/
theorem s0_sub : (s0 (F := F)).Forall fun op => op.bufs ⊆ tcRefs τ sig :=
  ⟨reshape_bufs_sub .., reshape_bufs_sub .., nullary_bufs_sub .., unary_bufs_sub .., reshape_bufs_sub .., nullary_bufs_sub ..⟩
/-- Every operation of `s0` determines its results. -/
theorem s0_fresh : (s0 (F := F)).Forall fun op => op.fresh = ∅ :=
  ⟨rfl, rfl, rfl, rfl, rfl, rfl⟩
/-- Every operation of `s1` touches TensorCore references only. -/
theorem s1_sub : (s1 (F := F)).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
/-- Every operation of `s1` determines its results. -/
theorem s1_fresh : (s1 (F := F)).Forall fun op => op.fresh = ∅ :=
  ⟨rfl, rfl, rfl, rfl, rfl, rfl, rfl, rfl, rfl, rfl, rfl, rfl, rfl, rfl, rfl, rfl, rfl, rfl, rfl, rfl, rfl⟩
/-- Every operation of `s2` touches TensorCore references only. -/
theorem s2_sub : (s2 (F := F)).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
/-- Every operation of `s2` determines its results. -/
theorem s2_fresh : (s2 (F := F)).Forall fun op => op.fresh = ∅ :=
  ⟨rfl, rfl, rfl, rfl, rfl, rfl, rfl, rfl, rfl, rfl, rfl, rfl, rfl, rfl, rfl, rfl, rfl, rfl⟩
/-- Every operation of `s3` touches TensorCore references only. -/
theorem s3_sub : (s3 (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
/-- Every operation of `s3` determines its results. -/
theorem s3_fresh : (s3 (F := F)).Forall fun op => op.fresh = ∅ :=
  ⟨rfl, rfl, rfl, rfl, rfl, rfl, rfl, rfl, rfl, rfl, rfl, rfl, rfl, rfl, rfl, rfl, rfl, rfl, rfl, rfl, rfl, rfl⟩
/-- Every operation of `s4` touches TensorCore references only. -/
theorem s4_sub : (s4 (F := F)).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
/-- Every operation of `s4` determines its results. -/
theorem s4_fresh : (s4 (F := F)).Forall fun op => op.fresh = ∅ :=
  ⟨rfl, rfl, rfl, rfl, rfl, rfl, rfl, rfl, rfl, rfl, rfl, rfl, rfl, rfl, rfl, rfl, rfl, rfl⟩
/-- Every operation of `s5` touches TensorCore references only. -/
theorem s5_sub : (s5 (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
/-- Every operation of `s5` determines its results. -/
theorem s5_fresh : (s5 (F := F)).Forall fun op => op.fresh = ∅ :=
  ⟨rfl, rfl, rfl, rfl, rfl, rfl, rfl, rfl, rfl, rfl, rfl, rfl, rfl, rfl, rfl, rfl, rfl, rfl, rfl, rfl, rfl, rfl⟩
/-- Every operation of `s6` touches TensorCore references only. -/
theorem s6_sub : (s6 (F := F)).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., ternary_bufs_sub ..⟩
/-- Every operation of `s6` determines its results. -/
theorem s6_fresh : (s6 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A property of every operation of two lines holds of every operation of their concatenation. -/
theorem forall_append' {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

/-- Every operation of the line touches TensorCore references only. -/
theorem ops_sub : (ops (F := F)).Forall fun op => op.bufs ⊆ tcRefs τ sig :=
  forall_append' s0_sub (forall_append' s1_sub (forall_append' s2_sub (forall_append' s3_sub (forall_append' s4_sub
    (forall_append' s5_sub s6_sub)))))
/-- Every operation of the line determines its results. -/
theorem ops_fresh : ∀ op ∈ (ops (F := F)), op.fresh = ∅ :=
  List.forall_iff_forall_mem.mp (forall_append' s0_fresh (forall_append' s1_fresh (forall_append' s2_fresh (forall_append' s3_fresh
    (forall_append' s4_fresh (forall_append' s5_fresh s6_fresh))))))

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-! ## Each stretch, from any contents -/

/-- After the first stretch `main_v0` holds the index words flattened. -/
theorem s0_v0 (W : Valuation τ sig (Elt F)) :
    after (s0 (F := F)) W (main_v0 : DevRef τ sig) = shapeCast Cert.Unpool.S16777216 (W (main_arg1 : DevRef τ sig)) Cert.Unpool.sc_in_flat := by
  delta s0
  after_results_simp
  all_goals (try simp only [TRef.ofBuf, TRef.toBuf, cast_eq])
  all_goals rfl

/-- After the first stretch `main_v1` holds the pooled values flattened. -/
theorem s0_v1 (W : Valuation τ sig (Elt F)) :
    after (s0 (F := F)) W (main_v1 : DevRef τ sig) = shapeCast Cert.Unpool.S16777216 (W (main_arg0 : DevRef τ sig)) Cert.Unpool.sc_in_flat := by
  delta s0
  after_results_simp
  all_goals (try simp only [TRef.ofBuf, TRef.toBuf, cast_eq])
  all_goals rfl

/-- After the first stretch `main_v4` holds each flattened element's batch number: the iota, broadcast, flattened. -/
theorem s0_v4 (W : Valuation τ sig (Elt F)) :
    after (s0 (F := F)) W (main_v4 : DevRef τ sig) = Cert.Unpool.batchOf := by
  delta s0
  after_results_simp
  all_goals (try simp only [TRef.ofBuf, TRef.toBuf, cast_eq])
  all_goals rfl

/-- After the first stretch `main_c` holds the constant 4194304. -/
theorem s0_c (W : Valuation τ sig (Elt F)) :
    after (s0 (F := F)) W (main_c : DevRef τ sig) = constantI S_ 32 4194304#32 := by
  delta s0
  after_results_simp
  all_goals (try simp only [TRef.ofBuf, TRef.toBuf, cast_eq])
  all_goals rfl

/-- The first `remainder` call leaves at `main_v5` the floored remainder of `main_v0`'s contents by `main_c`'s: its operations are `remFn`'s, in order. -/
theorem s1_v5 (W : Valuation τ sig (Elt F)) :
    after (s1 (F := F)) W (main_v5 : DevRef τ sig) = Cert.Unpool.remFn (W (main_v0 : DevRef τ sig)) (W (main_c : DevRef τ sig)) := by
  delta s1
  after_results_simp
  all_goals (try simp only [TRef.ofBuf, TRef.toBuf, cast_eq])
  all_goals rfl

/-- The first `floor_divide` call leaves at `main_v6` the floored quotient of `main_v5`'s contents by 16384: its operations are `fdivFn`'s, in order. -/
theorem s2_v6 (W : Valuation τ sig (Elt F)) :
    after (s2 (F := F)) W (main_v6 : DevRef τ sig) = Cert.Unpool.fdivFn (W (main_v5 : DevRef τ sig)) (constantI S_ 32 16384#32) := by
  delta s2
  after_results_simp
  all_goals (try simp only [TRef.ofBuf, TRef.toBuf, cast_eq])
  all_goals rfl

/-- The second `remainder` call leaves at `main_v7` the floored remainder of `main_v0`'s contents by 16384. -/
theorem s3_v7 (W : Valuation τ sig (Elt F)) :
    after (s3 (F := F)) W (main_v7 : DevRef τ sig) = Cert.Unpool.remFn (W (main_v0 : DevRef τ sig)) (constantI S_ 32 16384#32) := by
  delta s3
  after_results_simp
  all_goals (try simp only [TRef.ofBuf, TRef.toBuf, cast_eq])
  all_goals rfl

/-- The second `floor_divide` call leaves at `main_v8` the floored quotient of `main_v7`'s contents by 64. -/
theorem s4_v8 (W : Valuation τ sig (Elt F)) :
    after (s4 (F := F)) W (main_v8 : DevRef τ sig) = Cert.Unpool.fdivFn (W (main_v7 : DevRef τ sig)) (constantI S_ 32 64#32) := by
  delta s4
  after_results_simp
  all_goals (try simp only [TRef.ofBuf, TRef.toBuf, cast_eq])
  all_goals rfl

/-- The third `remainder` call leaves at `main_v9` the floored remainder of `main_v0`'s contents by 64. -/
theorem s5_v9 (W : Valuation τ sig (Elt F)) :
    after (s5 (F := F)) W (main_v9 : DevRef τ sig) = Cert.Unpool.remFn (W (main_v0 : DevRef τ sig)) (constantI S_ 32 64#32) := by
  delta s5
  after_results_simp
  all_goals (try simp only [TRef.ofBuf, TRef.toBuf, cast_eq])
  all_goals rfl

/-- The last stretch leaves at `main_v36` the scatter, into zeros, of `main_v1`'s contents at the four wrapped coordinates (`main_v4`, `main_v6`, `main_v8`, `main_v9`, each with a negative value raised by its axis length) laid side by side. -/
theorem s6_v36 (W : Valuation τ sig (Elt F)) :
    after (s6 (F := F)) W (main_v36 : DevRef τ sig) = Host.scatterAdd Cert.Unpool.dims4
        (broadcastInDim Cert.Unpool.S16x256x256x64 ![] Cert.Unpool.bc_out (constant (F := F) S_ .f32 0x00000000#32))
        (concatenate Cert.Unpool.S16777216x4 1
          [⟨Cert.Unpool.S16777216x1, broadcastInDim Cert.Unpool.S16777216x1 ![0] Cert.Unpool.bc_col (Cert.Unpool.wrapNeg 16#32 (W (main_v4 : DevRef τ sig)))⟩,
           ⟨Cert.Unpool.S16777216x1, broadcastInDim Cert.Unpool.S16777216x1 ![0] Cert.Unpool.bc_col (Cert.Unpool.wrapNeg 256#32 (W (main_v6 : DevRef τ sig)))⟩,
           ⟨Cert.Unpool.S16777216x1, broadcastInDim Cert.Unpool.S16777216x1 ![0] Cert.Unpool.bc_col (Cert.Unpool.wrapNeg 256#32 (W (main_v8 : DevRef τ sig)))⟩,
           ⟨Cert.Unpool.S16777216x1, broadcastInDim Cert.Unpool.S16777216x1 ![0] Cert.Unpool.bc_col (Cert.Unpool.wrapNeg 64#32 (W (main_v9 : DevRef τ sig)))⟩] Cert.Unpool.conc4)
        (W (main_v1 : DevRef τ sig)) := by
  delta s6
  after_results_simp
  all_goals (try simp only [TRef.ofBuf, TRef.toBuf, cast_eq])
  all_goals rfl

/-- No operation of `s0` writes `main_arg0`. -/
theorem s0_arg0 (W : Valuation τ sig (Elt F)) :
    after (s0 (F := F)) W (main_arg0 : DevRef τ sig) = W (main_arg0 : DevRef τ sig) := by
  delta s0
  after_results_simp

/-- No operation of `s0` writes `main_arg1`. -/
theorem s0_arg1 (W : Valuation τ sig (Elt F)) :
    after (s0 (F := F)) W (main_arg1 : DevRef τ sig) = W (main_arg1 : DevRef τ sig) := by
  delta s0
  after_results_simp

/-- No operation of `s1` writes `main_v0`. -/
theorem s1_v0 (W : Valuation τ sig (Elt F)) :
    after (s1 (F := F)) W (main_v0 : DevRef τ sig) = W (main_v0 : DevRef τ sig) := by
  delta s1
  after_results_simp

/-- No operation of `s1` writes `main_v1`. -/
theorem s1_v1 (W : Valuation τ sig (Elt F)) :
    after (s1 (F := F)) W (main_v1 : DevRef τ sig) = W (main_v1 : DevRef τ sig) := by
  delta s1
  after_results_simp

/-- No operation of `s1` writes `main_v4`. -/
theorem s1_v4 (W : Valuation τ sig (Elt F)) :
    after (s1 (F := F)) W (main_v4 : DevRef τ sig) = W (main_v4 : DevRef τ sig) := by
  delta s1
  after_results_simp

/-- No operation of `s1` writes `main_arg0`. -/
theorem s1_arg0 (W : Valuation τ sig (Elt F)) :
    after (s1 (F := F)) W (main_arg0 : DevRef τ sig) = W (main_arg0 : DevRef τ sig) := by
  delta s1
  after_results_simp

/-- No operation of `s1` writes `main_arg1`. -/
theorem s1_arg1 (W : Valuation τ sig (Elt F)) :
    after (s1 (F := F)) W (main_arg1 : DevRef τ sig) = W (main_arg1 : DevRef τ sig) := by
  delta s1
  after_results_simp

/-- No operation of `s2` writes `main_v0`. -/
theorem s2_v0 (W : Valuation τ sig (Elt F)) :
    after (s2 (F := F)) W (main_v0 : DevRef τ sig) = W (main_v0 : DevRef τ sig) := by
  delta s2
  after_results_simp

/-- No operation of `s2` writes `main_v1`. -/
theorem s2_v1 (W : Valuation τ sig (Elt F)) :
    after (s2 (F := F)) W (main_v1 : DevRef τ sig) = W (main_v1 : DevRef τ sig) := by
  delta s2
  after_results_simp

/-- No operation of `s2` writes `main_v4`. -/
theorem s2_v4 (W : Valuation τ sig (Elt F)) :
    after (s2 (F := F)) W (main_v4 : DevRef τ sig) = W (main_v4 : DevRef τ sig) := by
  delta s2
  after_results_simp

/-- No operation of `s2` writes `main_arg0`. -/
theorem s2_arg0 (W : Valuation τ sig (Elt F)) :
    after (s2 (F := F)) W (main_arg0 : DevRef τ sig) = W (main_arg0 : DevRef τ sig) := by
  delta s2
  after_results_simp

/-- No operation of `s2` writes `main_arg1`. -/
theorem s2_arg1 (W : Valuation τ sig (Elt F)) :
    after (s2 (F := F)) W (main_arg1 : DevRef τ sig) = W (main_arg1 : DevRef τ sig) := by
  delta s2
  after_results_simp

/-- No operation of `s3` writes `main_v0`. -/
theorem s3_v0 (W : Valuation τ sig (Elt F)) :
    after (s3 (F := F)) W (main_v0 : DevRef τ sig) = W (main_v0 : DevRef τ sig) := by
  delta s3
  after_results_simp

/-- No operation of `s3` writes `main_v1`. -/
theorem s3_v1 (W : Valuation τ sig (Elt F)) :
    after (s3 (F := F)) W (main_v1 : DevRef τ sig) = W (main_v1 : DevRef τ sig) := by
  delta s3
  after_results_simp

/-- No operation of `s3` writes `main_v4`. -/
theorem s3_v4 (W : Valuation τ sig (Elt F)) :
    after (s3 (F := F)) W (main_v4 : DevRef τ sig) = W (main_v4 : DevRef τ sig) := by
  delta s3
  after_results_simp

/-- No operation of `s3` writes `main_v6`. -/
theorem s3_v6 (W : Valuation τ sig (Elt F)) :
    after (s3 (F := F)) W (main_v6 : DevRef τ sig) = W (main_v6 : DevRef τ sig) := by
  delta s3
  after_results_simp

/-- No operation of `s3` writes `main_arg0`. -/
theorem s3_arg0 (W : Valuation τ sig (Elt F)) :
    after (s3 (F := F)) W (main_arg0 : DevRef τ sig) = W (main_arg0 : DevRef τ sig) := by
  delta s3
  after_results_simp

/-- No operation of `s3` writes `main_arg1`. -/
theorem s3_arg1 (W : Valuation τ sig (Elt F)) :
    after (s3 (F := F)) W (main_arg1 : DevRef τ sig) = W (main_arg1 : DevRef τ sig) := by
  delta s3
  after_results_simp

/-- No operation of `s4` writes `main_v0`. -/
theorem s4_v0 (W : Valuation τ sig (Elt F)) :
    after (s4 (F := F)) W (main_v0 : DevRef τ sig) = W (main_v0 : DevRef τ sig) := by
  delta s4
  after_results_simp

/-- No operation of `s4` writes `main_v1`. -/
theorem s4_v1 (W : Valuation τ sig (Elt F)) :
    after (s4 (F := F)) W (main_v1 : DevRef τ sig) = W (main_v1 : DevRef τ sig) := by
  delta s4
  after_results_simp

/-- No operation of `s4` writes `main_v4`. -/
theorem s4_v4 (W : Valuation τ sig (Elt F)) :
    after (s4 (F := F)) W (main_v4 : DevRef τ sig) = W (main_v4 : DevRef τ sig) := by
  delta s4
  after_results_simp

/-- No operation of `s4` writes `main_v6`. -/
theorem s4_v6 (W : Valuation τ sig (Elt F)) :
    after (s4 (F := F)) W (main_v6 : DevRef τ sig) = W (main_v6 : DevRef τ sig) := by
  delta s4
  after_results_simp

/-- No operation of `s4` writes `main_arg0`. -/
theorem s4_arg0 (W : Valuation τ sig (Elt F)) :
    after (s4 (F := F)) W (main_arg0 : DevRef τ sig) = W (main_arg0 : DevRef τ sig) := by
  delta s4
  after_results_simp

/-- No operation of `s4` writes `main_arg1`. -/
theorem s4_arg1 (W : Valuation τ sig (Elt F)) :
    after (s4 (F := F)) W (main_arg1 : DevRef τ sig) = W (main_arg1 : DevRef τ sig) := by
  delta s4
  after_results_simp

/-- No operation of `s5` writes `main_v1`. -/
theorem s5_v1 (W : Valuation τ sig (Elt F)) :
    after (s5 (F := F)) W (main_v1 : DevRef τ sig) = W (main_v1 : DevRef τ sig) := by
  delta s5
  after_results_simp

/-- No operation of `s5` writes `main_v4`. -/
theorem s5_v4 (W : Valuation τ sig (Elt F)) :
    after (s5 (F := F)) W (main_v4 : DevRef τ sig) = W (main_v4 : DevRef τ sig) := by
  delta s5
  after_results_simp

/-- No operation of `s5` writes `main_v6`. -/
theorem s5_v6 (W : Valuation τ sig (Elt F)) :
    after (s5 (F := F)) W (main_v6 : DevRef τ sig) = W (main_v6 : DevRef τ sig) := by
  delta s5
  after_results_simp

/-- No operation of `s5` writes `main_v8`. -/
theorem s5_v8 (W : Valuation τ sig (Elt F)) :
    after (s5 (F := F)) W (main_v8 : DevRef τ sig) = W (main_v8 : DevRef τ sig) := by
  delta s5
  after_results_simp

/-- No operation of `s5` writes `main_arg0`. -/
theorem s5_arg0 (W : Valuation τ sig (Elt F)) :
    after (s5 (F := F)) W (main_arg0 : DevRef τ sig) = W (main_arg0 : DevRef τ sig) := by
  delta s5
  after_results_simp

/-- No operation of `s5` writes `main_arg1`. -/
theorem s5_arg1 (W : Valuation τ sig (Elt F)) :
    after (s5 (F := F)) W (main_arg1 : DevRef τ sig) = W (main_arg1 : DevRef τ sig) := by
  delta s5
  after_results_simp

/-- No operation of `s6` writes `main_arg0`. -/
theorem s6_arg0 (W : Valuation τ sig (Elt F)) :
    after (s6 (F := F)) W (main_arg0 : DevRef τ sig) = W (main_arg0 : DevRef τ sig) := by
  delta s6
  after_results_simp

/-- No operation of `s6` writes `main_arg1`. -/
theorem s6_arg1 (W : Valuation τ sig (Elt F)) :
    after (s6 (F := F)) W (main_arg1 : DevRef τ sig) = W (main_arg1 : DevRef τ sig) := by
  delta s6
  after_results_simp

/-! ## The chain -/

/-- Running two lines one after the other is running their concatenation. -/
theorem after_append' : ∀ (l₁ l₂ : List (HloOp τ sig (Elt F))) (V : Valuation τ sig (Elt F)),
    after (l₁ ++ l₂) V = after l₂ (after l₁ V)
  | [], _, _ => rfl
  | _ :: l₁, l₂, V => by rw [List.cons_append, after_cons, after_cons, after_append' l₁ l₂]

attribute [local irreducible] Cert.Unpool.remFn Cert.Unpool.fdivFn Cert.Unpool.wrapNeg Cert.Unpool.batchOf in
/-- The result buffer after the whole line is `refVal` of the arguments: stretch by stretch from the last, each
    stretch's result read at what the stretches before it left in the buffers it reads; what is left is `refVal`'s
    own term (the three digits of the flattened index words, the batch numbers, the four wrapped columns, the scatter). -/
theorem out_eq (V : Valuation τ sig (Elt Ideal)) :
    after (ops (F := Ideal)) V (main_v36 : DevRef τ sig)
      = Cert.Unpool.refVal (V (main_arg0 : DevRef τ sig)) (V (main_arg1 : DevRef τ sig)) := by
  delta ops
  simp only [after_append']
  rw [s6_v36,
    s5_v9, s5_v8, s5_v6, s5_v4, s5_v1,
    s4_v8, s4_v6, s4_v4, s4_v1, s4_v0,
    s3_v7, s3_v6, s3_v4, s3_v1, s3_v0,
    s2_v6, s2_v4, s2_v1, s2_v0,
    s1_v5, s1_v4, s1_v1, s1_v0,
    s0_v0, s0_v1, s0_v4, s0_c]
  rfl

/-- No stretch writes the first argument. -/
theorem arg0_eq (V : Valuation τ sig (Elt F)) :
    after (ops (F := F)) V (main_arg0 : DevRef τ sig) = V (main_arg0 : DevRef τ sig) := by
  delta ops
  simp only [after_append']
  rw [s6_arg0, s5_arg0, s4_arg0, s3_arg0, s2_arg0, s1_arg0, s0_arg0]

/-- No stretch writes the second argument. -/
theorem arg1_eq (V : Valuation τ sig (Elt F)) :
    after (ops (F := F)) V (main_arg1 : DevRef τ sig) = V (main_arg1 : DevRef τ sig) := by
  delta ops
  simp only [after_append']
  rw [s6_arg1, s5_arg1, s4_arg1, s3_arg1, s2_arg1, s1_arg1, s0_arg1]

/-- From any memory with zero counters every weakly fair execution of the reference terminates with the result buffer at
    `refVal` of the arguments' launch contents and the arguments unchanged: the line's run, read back at the three buffers. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v36)
        = Cert.Unpool.refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v36).trans (out_eq _), (h c main_arg0).trans (arg0_eq _), (h c main_arg1).trans (arg1_eq _)⟩)
    (run_seq scopedRefs_eq scopedSems_eq defs main (fun _ => ops) main_eq (fun _ => ops_sub) m ρ (fun _ => ops_fresh))

end Cert.ReferenceIdeal.Hand

end
-- ==== Proof.ScatterMath.lean ====
/-
  Two accumulating scatters of the same updates into zero arrays agree when every update lands, in the flat
  array, at the row-major position of where it lands in the four-axis array.
-/
import proofs.«401093_j43980465111285_1_alg».proof.Proof.Spec
import Idealize.ShloMosaic.Lib.Pipeline.Value

noncomputable section

namespace Cert.Unpool

open Idealize.ShloMosaic Idealize.ShloMosaic.ValueIdx

/-! ## Where an update lands, in general -/

/-- An update lands at operand index `i` exactly when, on every operand axis, window start plus window coordinate is
    `i`'s coordinate: if all the sums are in range the landing index is made of them, and if one is out of range the
    update is dropped, while every coordinate of `i` is in range. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  by_cases hr : ∀ a, 0 ≤ d.start j idx a + d.window j a ∧ d.start j idx a + d.window j a < s.size a
  · rw [dif_pos hr, Option.some.injEq]
    constructor
    · rintro rfl a
      exact (Int.toNat_of_nonneg (hr a).1).symm
    · intro H
      funext a
      apply Fin.ext
      show (d.start j idx a + (d.window j a : ℤ)).toNat = (i a).val
      rw [H a]
      exact Int.toNat_natCast _
  · rw [dif_neg hr]
    constructor
    · intro h'
      cases h'
    · intro H
      exfalso
      apply hr
      intro a
      rw [H a]
      exact ⟨Int.natCast_nonneg _, by exact_mod_cast (i a).isLt⟩

/-! ## The flat scatter's dimension numbers -/

/-- The flat scatter has no window: its one operand axis is an inserted one. -/
theorem window1 (j : S16777216.Idx) (a : Fin 1) : dims1.window j a = 0 := by
  match a with
  | ⟨0, _⟩ => rfl

/-- Update `j` of the flat scatter reads its one index component at row `j 0`, column 0 of the index array. -/
theorem siIdx1 (j : S16777216.Idx) (c : Fin dims1.scatterDimsToOperandDims.length) :
    dims1.siIdx j c = ix2 (j 0) (0 : Fin 1) := by
  funext b
  match b with
  | ⟨0, _⟩ => rfl
  | ⟨1, _⟩ => match c with | ⟨0, _⟩ => rfl

/-- The flat scatter's window for update `j` starts at the index word of row `j 0`, read signed. -/
theorem start1 (j : S16777216.Idx) (idx : IVec S16777216x1 32) (a : Fin 1) :
    dims1.start j idx a = (idx (ix2 (j 0) (0 : Fin 1))).toInt := by
  obtain rfl : a = 0 := Subsingleton.elim _ _
  unfold ScatterDims.start
  rw [dif_pos (by decide)]
  exact congrArg (fun i => (idx i).toInt) (siIdx1 j _)

/-! ## The four-axis scatter's dimension numbers -/

/-- The four-axis scatter has no window either: all four operand axes are inserted ones. -/
theorem window4 (j : S16777216.Idx) (a : Fin 4) : dims4.window j a = 0 := by
  match a with
  | ⟨0, _⟩ => rfl
  | ⟨1, _⟩ => rfl
  | ⟨2, _⟩ => rfl
  | ⟨3, _⟩ => rfl

/-- Update `j` of the four-axis scatter reads component `c` of its index at row `j 0`, column `c`. -/
theorem siIdx4 (j : S16777216.Idx) (c : Fin dims4.scatterDimsToOperandDims.length) :
    dims4.siIdx j c = ix2 (j 0) (⟨c.val, c.isLt⟩ : Fin 4) := by
  funext b
  match b with
  | ⟨0, _⟩ => rfl
  | ⟨1, _⟩ =>
    match c with
    | ⟨0, _⟩ => rfl
    | ⟨1, _⟩ => rfl
    | ⟨2, _⟩ => rfl
    | ⟨3, _⟩ => rfl

/-- On operand axis `a` the four-axis scatter's window for update `j` starts at component `a` of row `j 0`, read
    signed: component `a` of an index names operand axis `a`. -/
theorem start4 (j : S16777216.Idx) (idx : IVec S16777216x4 32) (a : Fin 4) :
    dims4.start j idx a = (idx (ix2 (j 0) a)).toInt := by
  have hm : ∀ a : Fin 4, a ∈ dims4.scatterDimsToOperandDims := by decide
  have hi : ∀ a : Fin 4, List.idxOf a dims4.scatterDimsToOperandDims = a.val := by decide
  unfold ScatterDims.start
  rw [dif_pos (hm a)]
  refine congrArg (fun i => (idx i).toInt) ((siIdx4 j _).trans ?_)
  congr 1
  exact Fin.ext (hi a)

/-! ## Row-major position and mixed-radix digits -/

/-- The flat index matched with the four-axis index `o` is `o`'s row-major position. -/
theorem reshape_flat_val (o : S16x256x256x64.Idx) :
    ((Shape.reshapeEquiv sc_flat_out o) 0).val
      = (((o 0).val * 256 + (o 1).val) * 256 + (o 2).val) * 64 + (o 3).val := by
  have h := Shape.rowMajor_reshapeEquiv sc_flat_out o
  rw [Shape.rowMajor_val_one, Shape.rowMajor_val_four] at h
  exact h

/-- If update `k` carries the flat index `b * 4194304 + a` on one side and the four digits
    `(b, a / 16384, a % 16384 / 64, a % 64)` on the other (`b < 16`, `a < 4194304`), the flat scatter reshaped is the
    four-axis scatter. -/
theorem scatter_flat_eq_scatter4 (idx1 : IVec S16777216x1 32) (idx4 : IVec S16777216x4 32)
    (upd : S16777216.Idx → EReal) (z : EReal)
    (h : ∀ k : Fin 16777216, ∃ b a : ℕ, b < 16 ∧ a < 4194304
      ∧ (idx1 (ix2 k (0 : Fin 1))).toInt = ((b * 4194304 + a : ℕ) : ℤ)
      ∧ (idx4 (ix2 k (0 : Fin 4))).toInt = (b : ℤ)
      ∧ (idx4 (ix2 k (1 : Fin 4))).toInt = ((a / 16384 : ℕ) : ℤ)
      ∧ (idx4 (ix2 k (2 : Fin 4))).toInt = ((a % 16384 / 64 : ℕ) : ℤ)
      ∧ (idx4 (ix2 k (3 : Fin 4))).toInt = ((a % 64 : ℕ) : ℤ)) :
    shapeCast S16x256x256x64 (Ideal.hostScatterAdd dims1 (fun _ => z) idx1 upd) sc_flat_out
      = Ideal.hostScatterAdd dims4 (fun _ => z) idx4 upd := by
  -- at every output index both sides are `z` plus the sum of the updates landing there: the landing sets are equal
  funext o
  show z + _ = z + _
  refine congrArg (z + ·) ?_
  refine Finset.sum_congr (Finset.filter_congr fun j _ => ?_) fun _ _ => rfl
  rw [resultIdx?_eq_some_iff, resultIdx?_eq_some_iff]
  obtain ⟨b, a, _, ha, e1, e40, e41, e42, e43⟩ := h (j 0)
  have hrm := reshape_flat_val o
  have ho1 : (o 1).val < 256 := (o 1).isLt
  have ho2 : (o 2).val < 256 := (o 2).isLt
  have ho3 : (o 3).val < 64 := (o 3).isLt
  -- digits in the mixed radix (16, 256, 256, 64) are unique: with `o 1, o 2 < 256`, `o 3 < 64` and
  -- `a < 4194304 = 256 * 256 * 64`, `b * 4194304 + a = ((o 0 * 256 + o 1) * 256 + o 2) * 64 + o 3` holds exactly when
  -- `o 0 = b`, `o 1 = a / 16384`, `o 2 = a % 16384 / 64` and `o 3 = a % 64`
  constructor
  · intro H
    have H0 := H 0
    rw [start1, window1, e1, hrm] at H0
    push_cast at H0
    intro c
    rw [start4, window4]
    match c with
    | ⟨0, _⟩ => rw [show (⟨0, _⟩ : Fin 4) = 0 from rfl, e40]; push_cast; omega
    | ⟨1, _⟩ => rw [show (⟨1, _⟩ : Fin 4) = 1 from rfl, e41]; push_cast; omega
    | ⟨2, _⟩ => rw [show (⟨2, _⟩ : Fin 4) = 2 from rfl, e42]; push_cast; omega
    | ⟨3, _⟩ => rw [show (⟨3, _⟩ : Fin 4) = 3 from rfl, e43]; push_cast; omega
  · intro H c
    obtain rfl : c = 0 := Subsingleton.elim _ _
    rw [start1, window1, e1, hrm]
    have H0 := H 0
    have H1 := H 1
    have H2 := H 2
    have H3 := H 3
    rw [start4, window4] at H0 H1 H2 H3
    rw [e40] at H0
    rw [e41] at H1
    rw [e42] at H2
    rw [e43] at H3
    push_cast at H0 H1 H2 H3 ⊢
    omega

end Cert.Unpool

end
-- ==== Proof.IdxKernel.lean ====
/-
  The kernel program's scatter index of flattened element `k`: its word plus `4194304` times its batch `k / 1048576`.

  Element `k` of the flattened [16,16384,64] array sits in batch `k / 1048576` (a batch is 16384 * 64 = 1048576 words);
  the kernel adds `4194304` times the batch to the word. For a word in `[0, 4194304)` and a batch below 16 the sum stays
  below `2^26`, so 32-bit addition does not wrap, the sum is not negative and the wrap of negative indices leaves it alone.
-/
import proofs.«401093_j43980465111285_1_alg».proof.Proof.Spec
import Idealize.ShloMosaic.Lib.Pipeline.Value

noncomputable section

namespace Cert.Unpool

open Idealize.ShloMosaic Idealize.ShloMosaic.ValueIdx

/-- One word: `w + b * 4194304` for `0 ≤ w < 4194304`, `b < 16` passes the negative-index wrap unchanged, and its signed
    value is the sum of the numbers. -/
theorem word_offset (w : BitVec 32) (b : ℕ) (h0 : 0 ≤ w.toInt) (h1 : w.toInt < 4194304) (hb : b < 16) :
    (Scalar.select
      (IntOp.cmpi .slt (IntOp.addi w (Scalar.muli (BitVec.ofNat 32 b) 4194304#32)) 0#32)
      (IntOp.addi (IntOp.addi w (Scalar.muli (BitVec.ofNat 32 b) 4194304#32)) 67108864#32)
      (IntOp.addi w (Scalar.muli (BitVec.ofNat 32 b) 4194304#32))).toInt
      = ((b * 4194304 + w.toInt.toNat : ℕ) : ℤ) := by
  have hwn : w.toNat < 4194304 := by
    rcases Nat.lt_or_ge w.toNat (2 ^ 31) with hlt | hge
    · have : w.toInt = (w.toNat : ℤ) := BitVec.toInt_eq_toNat_of_lt (by omega)
      omega
    · have : w.toInt = (w.toNat : ℤ) - 2 ^ 32 := by
        rw [BitVec.toInt_eq_toNat_cond]; rw [if_neg (by omega)]; norm_num
      have := w.isLt
      omega
  have hwi : w.toInt = (w.toNat : ℤ) := BitVec.toInt_eq_toNat_of_lt (by omega)
  have hsum : (IntOp.addi w (Scalar.muli (BitVec.ofNat 32 b) 4194304#32)).toNat = w.toNat + b * 4194304 := by
    show (w + BitVec.ofNat 32 b * 4194304#32).toNat = _
    rw [BitVec.toNat_add, BitVec.toNat_mul, BitVec.toNat_ofNat]
    have : (4194304#32).toNat = 4194304 := by decide
    rw [this]
    have hb' : b % 2 ^ 32 = b := Nat.mod_eq_of_lt (by omega)
    rw [hb', Nat.mod_eq_of_lt (a := b * 4194304) (by omega), Nat.mod_eq_of_lt (by omega)]
  have hnonneg : IntOp.cmpi .slt (IntOp.addi w (Scalar.muli (BitVec.ofNat 32 b) 4194304#32)) 0#32 = 0#1 := by
    show BitVec.ofBool (BitVec.slt _ 0#32) = 0#1
    have : BitVec.slt (IntOp.addi w (Scalar.muli (BitVec.ofNat 32 b) 4194304#32)) 0#32 = false := by
      rw [BitVec.slt_eq_decide]
      have hi : (IntOp.addi w (Scalar.muli (BitVec.ofNat 32 b) 4194304#32)).toInt
          = ((IntOp.addi w (Scalar.muli (BitVec.ofNat 32 b) 4194304#32)).toNat : ℤ) :=
        BitVec.toInt_eq_toNat_of_lt (by rw [hsum]; omega)
      have hz : (0#32 : BitVec 32).toInt = 0 := by decide
      rw [hi, hz, hsum]
      exact decide_eq_false (by omega)
    rw [this]; rfl
  rw [hnonneg, select_zero]
  rw [BitVec.toInt_eq_toNat_of_lt (by rw [hsum]; omega), hsum, hwi]
  simp only [Int.toNat_natCast]
  push_cast
  omega

/-- The flattened element `k` of a [16,16384,64] array is the element whose coordinates are `k`'s digits: its batch
    coordinate is `k / 1048576`. -/
theorem batch_of_flat (k : Fin 16777216) :
    ((Shape.reshapeEquiv sc_blocks_flat (ix1 k) : S16x16384x64.Idx) 0).val = k.val / 1048576 := by
  have h := Shape.rowMajor_reshapeEquiv (s := S16x16384x64) (s' := S16777216) sc_blocks_flat (ix1 k)
  rw [Shape.rowMajor_val_three, Shape.rowMajor_val_one] at h
  have b1 : ((Shape.reshapeEquiv sc_blocks_flat (ix1 k) : S16x16384x64.Idx) 1).val < 16384 :=
    ((Shape.reshapeEquiv sc_blocks_flat (ix1 k) : S16x16384x64.Idx) 1).isLt
  have b2 : ((Shape.reshapeEquiv sc_blocks_flat (ix1 k) : S16x16384x64.Idx) 2).val < 64 :=
    ((Shape.reshapeEquiv sc_blocks_flat (ix1 k) : S16x16384x64.Idx) 2).isLt
  have e1 : (![16, 16384, 64] : Fin 3 → ℕ) 1 = 16384 := rfl
  have e2 : (![16, 16384, 64] : Fin 3 → ℕ) 2 = 64 := rfl
  rw [e1, e2] at h
  have hk : ((ix1 k : S16777216.Idx) 0).val = k.val := rfl
  rw [hk] at h
  omega

theorem kernIdx_apply (a : IVec S16x128x128x64 32) (ha : InRange a) (k : Fin 16777216) :
    (kernIdx a (ix2 k (0 : Fin 1))).toInt
      = ((k.val / 1048576 * 4194304 + ((shapeCast S16777216 a sc_in_flat) (ix1 k)).toInt.toNat : ℕ) : ℤ) := by
  have hcol : kernIdx a (ix2 k (0 : Fin 1))
      = wrapNeg 67108864#32 (shapeCast S16777216 (kernOut (shapeCast S16x16384x64 a sc_in_blocks)) sc_blocks_flat) (ix1 k) := by
    unfold kernIdx
    refine broadcastInDim_apply _ _ _ _ (ix1 k) (fun d => ?_)
    match d with
    | ⟨0, _⟩ => rfl
  have hword : (shapeCast S16x16384x64 a sc_in_blocks) (Shape.reshapeEquiv sc_blocks_flat (ix1 k))
      = (shapeCast S16777216 a sc_in_flat) (ix1 k) := by
    show a (Shape.reshapeEquiv sc_in_blocks (Shape.reshapeEquiv sc_blocks_flat (ix1 k))) = a (Shape.reshapeEquiv sc_in_flat (ix1 k))
    rw [Shape.reshapeEquiv_reshapeEquiv]
  have hr := ha (Shape.reshapeEquiv sc_in_flat (ix1 k))
  rw [hcol]
  show (Scalar.select
      (IntOp.cmpi .slt (IntOp.addi ((shapeCast S16x16384x64 a sc_in_blocks) (Shape.reshapeEquiv sc_blocks_flat (ix1 k)))
        (Scalar.muli (BitVec.ofNat 32 ((Shape.reshapeEquiv sc_blocks_flat (ix1 k) : S16x16384x64.Idx) 0).val) 4194304#32)) 0#32)
      (IntOp.addi (IntOp.addi ((shapeCast S16x16384x64 a sc_in_blocks) (Shape.reshapeEquiv sc_blocks_flat (ix1 k)))
        (Scalar.muli (BitVec.ofNat 32 ((Shape.reshapeEquiv sc_blocks_flat (ix1 k) : S16x16384x64.Idx) 0).val) 4194304#32)) 67108864#32)
      (IntOp.addi ((shapeCast S16x16384x64 a sc_in_blocks) (Shape.reshapeEquiv sc_blocks_flat (ix1 k)))
        (Scalar.muli (BitVec.ofNat 32 ((Shape.reshapeEquiv sc_blocks_flat (ix1 k) : S16x16384x64.Idx) 0).val) 4194304#32))).toInt = _
  rw [hword, batch_of_flat]
  exact word_offset _ _ hr.1 hr.2 (by have := k.isLt; omega)

end Cert.Unpool

end
-- ==== Proof.IdxRef.lean ====
/-
  The reference's four scatter coordinates of flattened element `k` with word `am`, `0 <= am < 4194304`:
  the batch `k / 1048576` and the digits `am / 16384`, `am % 16384 / 64`, `am % 64`.
-/
import proofs.«401093_j43980465111285_1_alg».proof.Proof.Spec
import Idealize.ShloMosaic.Lib.Pipeline.Value
import Idealize.ShloMosaic.Lib.StableHlo.Predicate

noncomputable section

namespace Cert.Unpool

open Idealize.ShloMosaic Idealize.ShloMosaic.ValueIdx
open Idealize.ShloMosaic.StableHlo.Predicate

namespace IdxRef

/-! ## The reference's word formulas on one word -/

/-- the reference's remainder formula on one word `w` and a scalar divisor `n`: the truncated remainder by `n'` (`n`, or 1 where
    `n = 0`), plus `n'` where the remainder is not zero and its sign is not the divisor's. -/
def remW (w n : BitVec 32) : BitVec 32 :=
  Scalar.select
    (IntOp.andi
      (IntOp.cmpi .ne (IntOp.cmpi .slt (IntOp.remsi .host w (Scalar.select (IntOp.cmpi .eq n 0#32) 1#32 n)) 0#32)
        (IntOp.cmpi .slt (Scalar.select (IntOp.cmpi .eq n 0#32) 1#32 n) 0#32))
      (IntOp.cmpi .ne (IntOp.remsi .host w (Scalar.select (IntOp.cmpi .eq n 0#32) 1#32 n)) 0#32))
    (IntOp.addi (IntOp.remsi .host w (Scalar.select (IntOp.cmpi .eq n 0#32) 1#32 n)) (Scalar.select (IntOp.cmpi .eq n 0#32) 1#32 n))
    (IntOp.remsi .host w (Scalar.select (IntOp.cmpi .eq n 0#32) 1#32 n))

/-- `remFn` is pointwise: at each position it is the one-word formula on the word there. -/
theorem remFn_apply (x : IVec S16777216 32) (n : BitVec 32) (j : S16777216.Idx) :
    remFn x (constantI S_ 32 n) j = remW (x j) n := rfl

/-- The sign word of a word: 0, -1 or 1. -/
def sgnW (x : BitVec 32) : BitVec 32 := if x = 0 then 0 else if x.msb then -1 else 1

/-- the reference's floor-divide formula on one word `x` and a scalar divisor `d`: the truncated quotient, less one where the
    signs differ and the truncated remainder is not zero. -/
def fdivW (x d : BitVec 32) : BitVec 32 :=
  Scalar.select
    (IntOp.andi (IntOp.cmpi .ne (sgnW x) (sgnW d)) (IntOp.cmpi .ne (IntOp.remsi .host x d) 0#32))
    (IntOp.subi (IntOp.divsi .host x d) 1#32) (IntOp.divsi .host x d)

/-- `fdivFn` is pointwise. -/
theorem fdivFn_apply (x : IVec S16777216 32) (n : BitVec 32) (j : S16777216.Idx) :
    fdivFn x (constantI S_ 32 n) j = fdivW (x j) n := rfl

/-- `wrapNeg` is pointwise: the word, plus `n` where it is negative. -/
theorem wrapNeg_apply (n : BitVec 32) (v : IVec S16777216 32) (j : S16777216.Idx) :
    wrapNeg n v j = Scalar.select (IntOp.cmpi .slt (v j) 0#32) (IntOp.addi (v j) n) (v j) := rfl

/-! ## Their values on a non-negative word and a positive divisor -/

/-- A word below 2^31 has a clear sign bit. -/
theorem msb_false_of_lt {w : BitVec 32} (h : w.toNat < 2 ^ 31) : w.msb = false :=
  BitVec.msb_eq_false_iff_two_mul_lt.mpr (by omega)

/-- A word below 2^31 is not less than zero as a signed word. -/
theorem slt_zero_of_lt {w : BitVec 32} (h : w.toNat < 2 ^ 31) : IntOp.cmpi .slt w 0#32 = 0#1 := by
  apply eq_zero_of_ne_one
  rw [slt_iff_toNat h (by decide)]
  simp

theorem ne_zero_of_pos {n : BitVec 32} (hn0 : 0 < n.toNat) : n ≠ 0#32 := by
  intro h; rw [h] at hn0; simp at hn0

/-- A positive divisor below 2^31 is neither zero nor -1: the signed division meets no corner. -/
theorem not_corner (w n : BitVec 32) (hn0 : 0 < n.toNat) (hn : n.toNat < 2 ^ 31) : ¬ IntOp.SDivCorner w n := by
  rintro (h | ⟨_, h⟩)
  · exact ne_zero_of_pos hn0 h
  · rw [h] at hn; revert hn; decide

/-- The truncated signed remainder of non-negative words is the unsigned remainder. -/
theorem remsi_eq (w n : BitVec 32) (hw : w.toNat < 2 ^ 31) (hn0 : 0 < n.toNat) (hn : n.toNat < 2 ^ 31) :
    IntOp.remsi .host w n = w % n := by
  simp only [IntOp.remsi, if_neg (not_corner w n hn0 hn), BitVec.srem_eq, msb_false_of_lt hw, msb_false_of_lt hn, BitVec.umod_eq]

/-- The truncated signed quotient of non-negative words is the unsigned quotient. -/
theorem divsi_eq (w n : BitVec 32) (hw : w.toNat < 2 ^ 31) (hn0 : 0 < n.toNat) (hn : n.toNat < 2 ^ 31) :
    IntOp.divsi .host w n = w / n := by
  simp only [IntOp.divsi, if_neg (not_corner w n hn0 hn), BitVec.sdiv_eq, msb_false_of_lt hw, msb_false_of_lt hn, BitVec.udiv_eq]

/-- The remainder formula on a non-negative word and a positive divisor: the remainder is non-negative like the divisor,
    so the sign correction does not fire. -/
theorem remW_eq (w n : BitVec 32) (hw : w.toNat < 2 ^ 31) (hn0 : 0 < n.toNat) (hn : n.toNat < 2 ^ 31) :
    remW w n = w % n := by
  have hsel : Scalar.select (IntOp.cmpi .eq n 0#32) 1#32 n = n := by
    have : IntOp.cmpi .eq n 0#32 = 0#1 := eq_zero_of_ne_one (fun h => ne_zero_of_pos hn0 (cmpi_eq_iff.mp h))
    rw [this, select_zero]
  unfold remW
  rw [hsel, remsi_eq w n hw hn0 hn]
  have hr : (w % n).toNat < 2 ^ 31 := by rw [BitVec.toNat_umod]; exact lt_of_le_of_lt (Nat.mod_le _ _) hw
  rw [slt_zero_of_lt hr, slt_zero_of_lt hn]
  have h00 : IntOp.cmpi .ne (0#1) (0#1) = 0#1 := by decide
  rw [h00]
  have hand : ∀ b : BitVec 1, IntOp.andi 0#1 b = 0#1 := fun b => by simp [IntOp.andi]
  rw [hand, select_zero]

/-- The floor-divide formula on a non-negative word and a positive divisor: a zero word has a zero remainder and a
    positive word has the divisor's sign, so the correction does not fire. -/
theorem fdivW_eq (w n : BitVec 32) (hw : w.toNat < 2 ^ 31) (hn0 : 0 < n.toNat) (hn : n.toNat < 2 ^ 31) :
    fdivW w n = w / n := by
  unfold fdivW
  rw [remsi_eq w n hw hn0 hn, divsi_eq w n hw hn0 hn]
  have hsn : sgnW n = 1 := by
    have h0' : ¬ n = (0 : BitVec 32) := ne_zero_of_pos hn0
    unfold sgnW; rw [if_neg h0', msb_false_of_lt hn]; rfl
  have hcond : IntOp.andi (IntOp.cmpi .ne (sgnW w) (sgnW n)) (IntOp.cmpi .ne (w % n) 0#32) = 0#1 := by
    by_cases h0 : w = 0#32
    · subst h0
      have : (0#32 % n) = 0#32 := by simp
      rw [this]
      have h00 : IntOp.cmpi .ne (0#32) (0#32) = 0#1 := by decide
      rw [h00]; simp [IntOp.andi]
    · have hsw : sgnW w = 1 := by
        have h0' : ¬ w = (0 : BitVec 32) := h0
        unfold sgnW; rw [if_neg h0', msb_false_of_lt hw]; rfl
      rw [hsw, hsn]
      have h11 : IntOp.cmpi .ne (1 : BitVec 32) (1 : BitVec 32) = 0#1 := by decide
      rw [h11]; simp [IntOp.andi]
  rw [hcond, select_zero]

/-- The wrap of negative coordinates leaves a non-negative word alone. -/
theorem wrap_id (n w : BitVec 32) (hw : w.toNat < 2 ^ 31) :
    Scalar.select (IntOp.cmpi .slt w 0#32) (IntOp.addi w n) w = w := by
  rw [slt_zero_of_lt hw, select_zero]

/-- A word whose unsigned value is a number below 2^31 reads as that number signed. -/
theorem toInt_of_toNat (v : BitVec 32) (m : ℕ) (h : v.toNat = m) (hm : m < 2 ^ 31) : v.toInt = (m : ℤ) := by
  rw [toInt_eq_toNat_of_lt (by omega), h]

/-! ## Reading the index array at a row -/

/-- A vector laid as a one-column array reads, at row `k`, the vector at `k`. -/
theorem col_apply (v : IVec S16777216 32) (k : Fin 16777216) :
    broadcastInDim S16777216x1 ![0] bc_col v (ix2 k (0 : Fin 1)) = v (ix1 k) := by
  refine broadcastInDim_apply _ _ _ _ (ix1 k) ?_
  intro a
  obtain rfl : a = 0 := Subsingleton.elim _ _
  rfl

/-- The four one-column pieces laid side by side: column `c` of row `k` is piece `c` at row `k`. -/
theorem concat4_apply (p0 p1 p2 p3 : IVec S16777216x1 32) (k : Fin 16777216) :
    concatenate S16777216x4 1 [⟨S16777216x1, p0⟩, ⟨S16777216x1, p1⟩, ⟨S16777216x1, p2⟩, ⟨S16777216x1, p3⟩] conc4 (ix2 k (0 : Fin 4))
        = p0 (ix2 k (0 : Fin 1))
    ∧ concatenate S16777216x4 1 [⟨S16777216x1, p0⟩, ⟨S16777216x1, p1⟩, ⟨S16777216x1, p2⟩, ⟨S16777216x1, p3⟩] conc4 (ix2 k (1 : Fin 4))
        = p1 (ix2 k (0 : Fin 1))
    ∧ concatenate S16777216x4 1 [⟨S16777216x1, p0⟩, ⟨S16777216x1, p1⟩, ⟨S16777216x1, p2⟩, ⟨S16777216x1, p3⟩] conc4 (ix2 k (2 : Fin 4))
        = p2 (ix2 k (0 : Fin 1))
    ∧ concatenate S16777216x4 1 [⟨S16777216x1, p0⟩, ⟨S16777216x1, p1⟩, ⟨S16777216x1, p2⟩, ⟨S16777216x1, p3⟩] conc4 (ix2 k (3 : Fin 4))
        = p3 (ix2 k (0 : Fin 1)) := by
  have hi : ∀ (c : Fin 4) (b : Fin S16777216x1.rank), b.cast (rfl : S16777216x1.rank = S16777216x4.rank) ≠ (1 : Fin 2) →
      ((ix2 k (0 : Fin 1) : S16777216x1.Idx) b).val = ((ix2 k c : S16777216x4.Idx) (b.cast rfl)).val := by
    intro c b hb
    match b, hb with
    | ⟨0, _⟩, _ => rfl
    | ⟨1, _⟩, hb => exact absurd rfl hb
  refine ⟨?_, ?_, ?_, ?_⟩
  · exact concatenate_apply_piece (t := S16777216x4) (1 : Fin 2)
      [⟨S16777216x1, p0⟩, ⟨S16777216x1, p1⟩, ⟨S16777216x1, p2⟩, ⟨S16777216x1, p3⟩] conc4 (ix2 k (0 : Fin 4)) 0 (by simp) S16777216x1 p0 rfl rfl 0 rfl
      (ix2 k (0 : Fin 1)) (hi 0) rfl
  · exact concatenate_apply_piece (t := S16777216x4) (1 : Fin 2)
      [⟨S16777216x1, p0⟩, ⟨S16777216x1, p1⟩, ⟨S16777216x1, p2⟩, ⟨S16777216x1, p3⟩] conc4 (ix2 k (1 : Fin 4)) 1 (by simp) S16777216x1 p1 rfl rfl 1 rfl
      (ix2 k (0 : Fin 1)) (hi 1) rfl
  · exact concatenate_apply_piece (t := S16777216x4) (1 : Fin 2)
      [⟨S16777216x1, p0⟩, ⟨S16777216x1, p1⟩, ⟨S16777216x1, p2⟩, ⟨S16777216x1, p3⟩] conc4 (ix2 k (2 : Fin 4)) 2 (by simp) S16777216x1 p2 rfl rfl 2 rfl
      (ix2 k (0 : Fin 1)) (hi 2) rfl
  · exact concatenate_apply_piece (t := S16777216x4) (1 : Fin 2)
      [⟨S16777216x1, p0⟩, ⟨S16777216x1, p1⟩, ⟨S16777216x1, p2⟩, ⟨S16777216x1, p3⟩] conc4 (ix2 k (3 : Fin 4)) 3 (by simp) S16777216x1 p3 rfl rfl 3 rfl
      (ix2 k (0 : Fin 1)) (hi 3) rfl

/-- The batch number of flattened element `k`: the iota over 16 laid along rows of 1048576 reads, at flat position
    `k = r * 1048576 + c`, the row `r = k / 1048576`. -/
theorem batchOf_apply (k : Fin 16777216) : batchOf (ix1 k) = BitVec.ofNat 32 (k.val / 1048576) := by
  have hk := k.isLt
  unfold batchOf
  rw [shapeCast_apply _ sc_iota_flat (ix1 k)
    (ix2 (⟨k.val / 1048576, by omega⟩ : Fin 16) (⟨k.val % 1048576, Nat.mod_lt _ (by norm_num)⟩ : Fin 1048576)) ?_]
  · rfl
  · rw [Shape.rowMajor_val_two, Shape.rowMajor_val_one]
    show k.val / 1048576 * 1048576 + k.val % 1048576 = k.val
    omega

/-- The four columns of the reference's index array at row `k`, as the four wrapped coordinate vectors at `k`. -/
theorem refIdx_cols (a : IVec S16x128x128x64 32) (k : Fin 16777216) :
    refIdx a (ix2 k (0 : Fin 4)) = wrapNeg 16#32 batchOf (ix1 k)
    ∧ refIdx a (ix2 k (1 : Fin 4))
        = wrapNeg 256#32 (fdivFn (remFn (shapeCast S16777216 a sc_in_flat) (constantI S_ 32 4194304#32)) (constantI S_ 32 16384#32)) (ix1 k)
    ∧ refIdx a (ix2 k (2 : Fin 4))
        = wrapNeg 256#32 (fdivFn (remFn (shapeCast S16777216 a sc_in_flat) (constantI S_ 32 16384#32)) (constantI S_ 32 64#32)) (ix1 k)
    ∧ refIdx a (ix2 k (3 : Fin 4))
        = wrapNeg 64#32 (remFn (shapeCast S16777216 a sc_in_flat) (constantI S_ 32 64#32)) (ix1 k) := by
  obtain ⟨c0, c1, c2, c3⟩ := concat4_apply
    (broadcastInDim S16777216x1 ![0] bc_col (wrapNeg 16#32 batchOf))
    (broadcastInDim S16777216x1 ![0] bc_col (wrapNeg 256#32
      (fdivFn (remFn (shapeCast S16777216 a sc_in_flat) (constantI S_ 32 4194304#32)) (constantI S_ 32 16384#32))))
    (broadcastInDim S16777216x1 ![0] bc_col (wrapNeg 256#32
      (fdivFn (remFn (shapeCast S16777216 a sc_in_flat) (constantI S_ 32 16384#32)) (constantI S_ 32 64#32))))
    (broadcastInDim S16777216x1 ![0] bc_col (wrapNeg 64#32 (remFn (shapeCast S16777216 a sc_in_flat) (constantI S_ 32 64#32)))) k
  exact ⟨c0.trans (col_apply _ k), c1.trans (col_apply _ k), c2.trans (col_apply _ k), c3.trans (col_apply _ k)⟩

/-- A word in `[0, 4194304)` read signed is its unsigned value. -/
theorem toNat_of_toInt (w : BitVec 32) (h0 : 0 ≤ w.toInt) (h1 : w.toInt < 4194304) :
    w.toNat < 4194304 ∧ w.toInt.toNat = w.toNat := by
  have hlt := w.isLt
  rw [BitVec.toInt_eq_toNat_cond] at h0 h1 ⊢
  split_ifs at h0 h1 ⊢ <;> omega

/-- The four coordinate words of a row: the wrapped batch number `k / 1048576` and, for a word `w` in
    `[0, 4194304)`, the wrapped digits `w / 16384`, `w % 16384 / 64`, `w % 64` (for such a word `w % 4194304 = w`). -/
theorem digits (w : BitVec 32) (h0 : 0 ≤ w.toInt) (h1 : w.toInt < 4194304) (k : Fin 16777216) :
    (Scalar.select (IntOp.cmpi .slt (BitVec.ofNat 32 (k.val / 1048576)) 0#32)
        (IntOp.addi (BitVec.ofNat 32 (k.val / 1048576)) 16#32) (BitVec.ofNat 32 (k.val / 1048576))).toInt = ((k.val / 1048576 : ℕ) : ℤ)
    ∧ (Scalar.select (IntOp.cmpi .slt (fdivW (remW w 4194304#32) 16384#32) 0#32)
        (IntOp.addi (fdivW (remW w 4194304#32) 16384#32) 256#32) (fdivW (remW w 4194304#32) 16384#32)).toInt
        = ((w.toInt.toNat / 16384 : ℕ) : ℤ)
    ∧ (Scalar.select (IntOp.cmpi .slt (fdivW (remW w 16384#32) 64#32) 0#32)
        (IntOp.addi (fdivW (remW w 16384#32) 64#32) 256#32) (fdivW (remW w 16384#32) 64#32)).toInt
        = ((w.toInt.toNat % 16384 / 64 : ℕ) : ℤ)
    ∧ (Scalar.select (IntOp.cmpi .slt (remW w 64#32) 0#32) (IntOp.addi (remW w 64#32) 64#32) (remW w 64#32)).toInt
        = ((w.toInt.toNat % 64 : ℕ) : ℤ) := by
  obtain ⟨hw, hwn⟩ := toNat_of_toInt w h0 h1
  have hk := k.isLt
  rw [hwn]
  have hw31 : w.toNat < 2 ^ 31 := by omega
  -- the three remainders
  have r1 : remW w 4194304#32 = w % 4194304#32 := remW_eq w _ hw31 (by decide) (by decide)
  have r2 : remW w 16384#32 = w % 16384#32 := remW_eq w _ hw31 (by decide) (by decide)
  have r3 : remW w 64#32 = w % 64#32 := remW_eq w _ hw31 (by decide) (by decide)
  have n1 : (w % 4194304#32).toNat = w.toNat := by
    rw [BitVec.toNat_umod]; exact Nat.mod_eq_of_lt hw
  have n2 : (w % 16384#32).toNat = w.toNat % 16384 := by rw [BitVec.toNat_umod]; rfl
  have n3 : (w % 64#32).toNat = w.toNat % 64 := by rw [BitVec.toNat_umod]; rfl
  -- the two quotients
  have q1 : fdivW (w % 4194304#32) 16384#32 = (w % 4194304#32) / 16384#32 :=
    fdivW_eq _ _ (by omega) (by decide) (by decide)
  have q2 : fdivW (w % 16384#32) 64#32 = (w % 16384#32) / 64#32 :=
    fdivW_eq _ _ (by omega) (by decide) (by decide)
  have m1 : ((w % 4194304#32) / 16384#32).toNat = w.toNat / 16384 := by rw [BitVec.toNat_udiv, n1]; rfl
  have m2 : ((w % 16384#32) / 64#32).toNat = w.toNat % 16384 / 64 := by rw [BitVec.toNat_udiv, n2]; rfl
  have b0 : (BitVec.ofNat 32 (k.val / 1048576)).toNat = k.val / 1048576 := by
    rw [BitVec.toNat_ofNat]; exact Nat.mod_eq_of_lt (by omega)
  rw [r1, r2, r3, q1, q2]
  refine ⟨?_, ?_, ?_, ?_⟩
  · rw [wrap_id _ _ (by omega)]; exact toInt_of_toNat _ _ b0 (by omega)
  · rw [wrap_id _ _ (by omega)]; exact toInt_of_toNat _ _ m1 (by omega)
  · rw [wrap_id _ _ (by omega)]; exact toInt_of_toNat _ _ m2 (by omega)
  · rw [wrap_id _ _ (by omega)]; exact toInt_of_toNat _ _ n3 (by omega)

end IdxRef

open IdxRef

/-- A word of the flattened index array is a word of the array: in range when they all are. -/
theorem flat_inRange (a : IVec S16x128x128x64 32) (ha : InRange a) (k : Fin 16777216) :
    0 ≤ ((shapeCast S16777216 a sc_in_flat) (ix1 k)).toInt ∧ ((shapeCast S16777216 a sc_in_flat) (ix1 k)).toInt < 4194304 :=
  ha (Shape.reshapeEquiv sc_in_flat (ix1 k))

theorem refIdx_apply (a : IVec S16x128x128x64 32) (ha : InRange a) (k : Fin 16777216) :
    (refIdx a (ix2 k (0 : Fin 4))).toInt = ((k.val / 1048576 : ℕ) : ℤ)
    ∧ (refIdx a (ix2 k (1 : Fin 4))).toInt = ((((shapeCast S16777216 a sc_in_flat) (ix1 k)).toInt.toNat / 16384 : ℕ) : ℤ)
    ∧ (refIdx a (ix2 k (2 : Fin 4))).toInt = ((((shapeCast S16777216 a sc_in_flat) (ix1 k)).toInt.toNat % 16384 / 64 : ℕ) : ℤ)
    ∧ (refIdx a (ix2 k (3 : Fin 4))).toInt = ((((shapeCast S16777216 a sc_in_flat) (ix1 k)).toInt.toNat % 64 : ℕ) : ℤ) := by
  obtain ⟨h0, h1⟩ := flat_inRange a ha k
  obtain ⟨c0, c1, c2, c3⟩ := refIdx_cols a k
  rw [c0, c1, c2, c3]
  simp only [wrapNeg_apply, fdivFn_apply, remFn_apply, batchOf_apply]
  exact digits _ h0 h1 k

end Cert.Unpool

end
-- ==== Proof.Bridge.lean ====
/-
  On index words inside one batch's volume the two programs compute the same array.

  Both programs scatter the same flattened values into a zero array. Flattened element `k`, of batch `b = k / 1048576`
  and word `am` with `0 ≤ am < 4194304`, is sent by the kernel's program to flat position `b * 4194304 + am` and by the
  reference to the coordinates `(b, am / 16384, am % 16384 / 64, am % 64)`: the same element of the [16,256,256,64]
  array, whose row-major position is `((b * 256 + i1) * 256 + i2) * 64 + i3`. At `Ideal` an accumulating scatter is, at
  each element, the sum of the updates that land on it, so the two results are equal.
-/
import proofs.«401093_j43980465111285_1_alg».proof.Proof.Spec
import proofs.«401093_j43980465111285_1_alg».proof.Proof.ScatterMath
import proofs.«401093_j43980465111285_1_alg».proof.Proof.IdxKernel
import proofs.«401093_j43980465111285_1_alg».proof.Proof.IdxRef

noncomputable section

namespace Cert.Unpool

open Idealize.ShloMosaic Idealize.ShloMosaic.ValueIdx

theorem kernVal_eq_refVal (x : FVec Ideal S16x128x128x64 .f32) (a : IVec S16x128x128x64 32) (ha : InRange a) :
    kernVal x a = refVal x a := by
  have hz1 : broadcastInDim S67108864 ![] bc_big (constant (F := Ideal) S_ .f32 0x00000000#32)
      = fun _ => Ideal.ofBits .f32 0x00000000#32 := funext fun _ => rfl
  have hz4 : broadcastInDim S16x256x256x64 ![] bc_out (constant (F := Ideal) S_ .f32 0x00000000#32)
      = fun _ => Ideal.ofBits .f32 0x00000000#32 := funext fun _ => rfl
  unfold kernVal refVal
  rw [hz1, hz4]
  show shapeCast S16x256x256x64 (Ideal.hostScatterAdd dims1 (fun _ => Ideal.ofBits .f32 0x00000000#32) (kernIdx a)
      (shapeCast S16777216 x sc_in_flat)) sc_flat_out
    = Ideal.hostScatterAdd dims4 (fun _ => Ideal.ofBits .f32 0x00000000#32) (refIdx a) (shapeCast S16777216 x sc_in_flat)
  refine scatter_flat_eq_scatter4 _ _ _ _ (fun k => ?_)
  have hr := flat_inRange a ha k
  have hd := refIdx_apply a ha k
  refine ⟨k.val / 1048576, ((shapeCast S16777216 a sc_in_flat) (ix1 k)).toInt.toNat, ?_, ?_, kernIdx_apply a ha k,
    hd.1, hd.2.1, hd.2.2.1, hd.2.2.2⟩
  · have := k.isLt; omega
  · omega

end Cert.Unpool

end
-- ==== Proof.PreDecode.lean ====
/-
  The precondition read back: every index word lies in `[0, 4194304)`.
-/
import proofs.«401093_j43980465111285_1_alg».proof.Proof.Spec
import proofs.«401093_j43980465111285_1_alg».proof.Pre_finite_inputs
import proofs.«401093_j43980465111285_1_alg».proof.Proof.Gen.Pre_finite_inputs
import Idealize.ShloMosaic.Lib.ReduceAll
import Idealize.ShloMosaic.Lib.StableHlo.Predicate

noncomputable section

namespace Cert.Unpool

open Idealize.ShloMosaic

/-- The precondition's value at its one index is the conjunction of three conjunctions over all elements (each a
    reduction by `and` from 1). If it is 1, the second says `0 ≤ a i` and the third `a i < 4194304` (signed) at every
    index `i`: a reduction by `and` that came out 1 met only 1s, an element of a comparison array is the comparison of
    the elements, and a broadcast scalar reads the scalar everywhere. The conjunct on `x` is not used. -/
theorem inRange_of_pre {F : FTy → Type} [FloatOps F] (x : FVec F S16x128x128x64 .f32) (a : IVec S16x128x128x64 32)
    (h : Cert.Pre_finite_inputs.fn (F := F) x a = fun _ => 1#1) : InRange a := by
  -- a shape of rank 0 has exactly one index
  haveI : Subsingleton S_.Idx := ⟨fun _ _ => funext fun d => d.elim0⟩
  have h0 := congrFun h ValueIdx.ix0
  dsimp only [Cert.Pre_finite_inputs.fn] at h0
  obtain ⟨h7, h10⟩ := IntOp.andi_eq_one.1 h0
  obtain ⟨_, h6⟩ := IntOp.andi_eq_one.1 h7
  intro i
  have hge := Host.reduce_andi_all _ _ _ _ _ h6 i
  have hlt := Host.reduce_andi_all _ _ _ _ _ h10 i
  have hge' : IntOp.cmpi .sge (a i) 0#32 = 1#1 := hge
  have hlt' : IntOp.cmpi .slt (a i) 4194304#32 = 1#1 := hlt
  have h1 : (0#32 : BitVec 32).toInt ≤ (a i).toInt := IntOp.cmpi_sge.1 hge'
  have h2 : (a i).toInt < (4194304#32 : BitVec 32).toInt := IntOp.cmpi_slt.1 hlt'
  have e0 : (0#32 : BitVec 32).toInt = 0 := by decide
  have e1 : (4194304#32 : BitVec 32).toInt = 4194304 := by decide
  rw [e0] at h1
  rw [e1] at h2
  exact ⟨h1, h2⟩

end Cert.Unpool

end
-- ==== Proof.lean ====
/-
  Unpooling by recorded argmax positions: the pooled values are scatter-added into a zero array of shape
  [16,256,256,64], element (b,h,w,c) going to batch `b` at the position its index word `am` names inside that batch's
  (256,256,64) volume. The kernel's program forms the flat position `b * 4194304 + am` and scatters into the flattened
  array; the reference splits `am` into its three digits and scatters with four coordinates. Stated for index words
  `0 <= am < 4194304`, where the digits recombine to `am`: both programs then add every value at the same element, and
  at `Ideal` an accumulating scatter is the exact sum of what lands on each element, so the results are equal.

  The frames of the two kernel programs are their frame runs; the reference's frame is its run with the result
  dropped; the idealization rewrote nothing.
-/
import proofs.«401093_j43980465111285_1_alg».proof.Defs
import proofs.«401093_j43980465111285_1_alg».proof.Proof.Gen.Kernel
import proofs.«401093_j43980465111285_1_alg».proof.Proof.Gen.KernelIdeal
import proofs.«401093_j43980465111285_1_alg».proof.Proof.Gen.ReferenceIdeal
import proofs.«401093_j43980465111285_1_alg».proof.Proof.Gen.Pre_finite_inputs
import proofs.«401093_j43980465111285_1_alg».proof.Proof.FrameKernel
import proofs.«401093_j43980465111285_1_alg».proof.Proof.FrameKernelIdeal
import proofs.«401093_j43980465111285_1_alg».proof.Proof.KernelRun
import proofs.«401093_j43980465111285_1_alg».proof.Proof.RefRun
import proofs.«401093_j43980465111285_1_alg».proof.Proof.Bridge
import proofs.«401093_j43980465111285_1_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_reference : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- Both runs end at their pure functions of the arguments; the arguments agree, the index words are in range by the
    precondition, and on such words the two functions are one. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2]
  exact (Cert.Unpool.kernVal_eq_refVal _ _ (Cert.Unpool.inRange_of_pre _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
